-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S6 .f32) (main_v33 : IVec S_ 1) : IVec S_ 1 :=
  let main_v34 : FVec F S6 .f32 := Host.absf main_arg8
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg5 : FVec F S256x7 .f32) (main_arg6 : FVec F S7 .f32) (main_arg7 : FVec F S256x6 .f32) (main_arg8 : FVec F S6 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x7 .f32 := Host.absf main_arg5
  let main_cst_6 : FVec F S_ .f32 := constant S_ .f32 0x7F800000#32
  let main_v20 : FVec F S256x7 .f32 := broadcastInDim S256x7 ![] bcast_S_S256x7 main_cst_6
  let main_v21 : IVec S256x7 1 := cmpf .olt main_v19 main_v20
  let main_c_7 : IVec S_ 1 := constantI S_ 1 1#1
  let main_v22 : IVec S_ 1 := (fun x v => Host.reduce IntOp.andi x v reducesTo_S256x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S256x6 .f32 := Host.absf main_arg7
  let main_cst_10 : FVec F S_ .f32 := constant S_ .f32 0x7F800000#32
  let main_v30 : FVec F S256x6 .f32 := broadcastInDim S256x6 ![] bcast_S_S256x6 main_cst_10
  let main_v31 : IVec S256x6 1 := cmpf .olt main_v29 main_v30
  let main_c_11 : IVec S_ 1 := constantI S_ 1 1#1
  let main_v32 : IVec S_ 1 := (fun x v => Host.reduce IntOp.andi x v reducesTo_S256x6_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x625000 32) (main_arg2 : FVec F S128x256 .f32) (main_arg3 : FVec F S256 .f32) (main_arg4 : FVec F S128x256 .f32) (main_arg5 : FVec F S256x7 .f32) (main_arg6 : FVec F S7 .f32) (main_arg7 : FVec F S256x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_v13 main_v16
-- ==== Kernel.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x256 : Shape := ⟨2, ![1, 256]⟩
abbrev S1x7 : Shape := ⟨2, ![1, 7]⟩
abbrev S1x6 : Shape := ⟨2, ![1, 6]⟩
abbrev S100000x7 : Shape := ⟨2, ![100000, 7]⟩
abbrev S100000x6 : Shape := ⟨2, ![100000, 6]⟩
abbrev S2000x128 : Shape := ⟨2, ![2000, 128]⟩
abbrev S2000x7 : Shape := ⟨2, ![2000, 7]⟩
abbrev S2000x6 : Shape := ⟨2, ![2000, 6]⟩
abbrev S2000x256 : Shape := ⟨2, ![2000, 256]⟩
abbrev S2000 : Shape := ⟨1, ![2000]⟩
abbrev S2000x1 : Shape := ⟨2, ![2000, 1]⟩

abbrev nBuf : Space → Nat
  | .hbm => 49
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x7, .f32⟩
  | .hbm, ⟨6, _⟩ => ⟨S7, .f32⟩
  | .hbm, ⟨7, _⟩ => ⟨S256x6, .f32⟩
  | .hbm, ⟨8, _⟩ => ⟨S6, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .f32⟩
  | .hbm, ⟨23, _⟩ => ⟨S100000x128, .f32⟩
  | .hbm, ⟨24, _⟩ => ⟨S625000x1, .i32⟩
  | .hbm, ⟨25, _⟩ => ⟨S100000x128, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S100000, .f32⟩
  | .hbm, ⟨30, _⟩ => ⟨S625000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .bf16⟩
  | .hbm, ⟨39, _⟩ => ⟨S100000x128, .bf16⟩
  | .hbm, ⟨40, _⟩ => ⟨S128x256, .bf16⟩
  | .hbm, ⟨41, _⟩ => ⟨S128x256, .bf16⟩
  | .hbm, ⟨42, _⟩ => ⟨S256x7, .bf16⟩
  | .hbm, ⟨43, _⟩ => ⟨S256x6, .bf16⟩
  | .hbm, ⟨44, _⟩ => ⟨S1x256, .f32⟩
  | .hbm, ⟨45, _⟩ => ⟨S1x7, .f32⟩
  | .hbm, ⟨46, _⟩ => ⟨S1x6, .f32⟩
  | .hbm, ⟨47, _⟩ => ⟨S100000x7, .f32⟩
  | .hbm, ⟨48, _⟩ => ⟨S100000x6, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S256x7, .bf16⟩
  | .local _ .vmem, ⟨8, _⟩ => ⟨S1x7, .f32⟩
  | .local _ .vmem, ⟨9, _⟩ => ⟨S256x6, .bf16⟩
  | .local _ .vmem, ⟨10, _⟩ => ⟨S1x6, .f32⟩
  | .local _ .vmem, ⟨11, _⟩ => ⟨S2000x7, .f32⟩
  | .local _ .vmem, ⟨12, _⟩ => ⟨S2000x7, .f32⟩
  | .local _ .vmem, ⟨13, _⟩ => ⟨S2000x6, .f32⟩
  | .local _ .vmem, ⟨14, _⟩ => ⟨S2000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x7 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x6 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x7 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x6 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S256_S1x256 : S256.ShapeCasts S1x256
  shapeCasts_S7_S1x7 : S7.ShapeCasts S1x7
  shapeCasts_S6_S1x6 : S6.ShapeCasts S1x6
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x7_S256x7_0_0 : ∀ a, (![0, 0] : Fin 2 → Nat) a + S256x7.size a ≤ S256x7.size a
  h_S256x7 : 0 < S256x7.numel
  shapeCasts_S256x7_S256x7 : S256x7.ShapeCasts S256x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  reduces_S2000x7_S2000 : S2000x7.Reduces [1] S2000
  shapeCasts_S2000_S2000x1 : S2000.ShapeCasts S2000x1
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  reduces_S2000x6_S2000 : S2000x6.Reduces [1] S2000
  broadcasts_S2000x1_S2000x6 : S2000x1.Broadcasts S2000x6
  inb_S2000x6_S2000x6_0_0 : ∀ a, (![0, 0] : Fin 2 → Nat) a + S2000x6.size a ≤ S2000x6.size a
  h_S2000x6 : 0 < S2000x6.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S2000x128_S128x256_S2000x256_1_0_0_1_n_n_wf : DotDims.WF S2000x128 S128x256 S2000x256 [1] [0] [0] [1] [] []
  dot_S2000x256_S256x7_S2000x7_1_0_0_1_n_n_wf : DotDims.WF S2000x256 S256x7 S2000x7 [1] [0] [0] [1] [] []
  dot_S2000x256_S256x6_S2000x6_1_0_0_1_n_n_wf : DotDims.WF S2000x256 S256x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .bf16 = 32 ∨ (Rect.block (s := S100000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x7.size a ≤ S256x7.size a
  hwx0_5 : ∀ i : grid0.Coords, EltTy.bits .bf16 = 32 ∨ (Rect.block (s := S256x7) S256x7.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x7.size a ≤ S1x7.size a
  hwx0_6 : ∀ i : grid0.Coords, EltTy.bits .f32 = 32 ∨ (Rect.block (s := S1x7) S1x7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x6.size a ≤ S256x6.size a
  hwx0_7 : ∀ i : grid0.Coords, EltTy.bits .bf16 = 32 ∨ (Rect.block (s := S256x6) S256x6.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x7.size a ≤ S100000x7.size a
  hwx0_9 : ∀ i : grid0.Coords, EltTy.bits .f32 = 32 ∨ (Rect.block (s := S100000x7) S2000x7.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x6.size a ≤ S100000x6.size a
  hwx0_10 : ∀ i : grid0.Coords, EltTy.bits .f32 = 32 ∨ (Rect.block (s := S100000x6) S2000x6.size (cc0_transform_10 i) (hinb0_10 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x7_S2000x7_1_0_0_1_n_n : DotDims S2000x256 S256x7 S2000x7 where
  lhsContracting := [1]
  rhsContracting := [0]
  lhsNonContracting := [0]
  rhsNonContracting := [1]
  lhsBatch := []
  rhsBatch := []
  wf := dot_S2000x256_S256x7_S2000x7_1_0_0_1_n_n_wf
def dot_S2000x256_S256x6_S2000x6_1_0_0_1_n_n : DotDims S2000x256 S256x6 S2000x6 where
  lhsContracting := [1]
  rhsContracting := [0]
  lhsNonContracting := [0]
  rhsNonContracting := [1]
  lhsBatch := []
  rhsBatch := []
  wf := dot_S2000x256_S256x6_S2000x6_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S256x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S256x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32_0) S2000x7.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v32_1) S2000x6.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S100000x7 : Shape := ⟨2, ![100000, 7]⟩
abbrev S1x7 : Shape := ⟨2, ![1, 7]⟩
abbrev S100000x6 : Shape := ⟨2, ![100000, 6]⟩
abbrev S1x6 : Shape := ⟨2, ![1, 6]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x7, .f32⟩
  | .hbm, ⟨6, _⟩ => ⟨S7, .f32⟩
  | .hbm, ⟨7, _⟩ => ⟨S256x6, .f32⟩
  | .hbm, ⟨8, _⟩ => ⟨S6, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .f32⟩
  | .hbm, ⟨23, _⟩ => ⟨S100000x128, .f32⟩
  | .hbm, ⟨24, _⟩ => ⟨S625000x1, .i32⟩
  | .hbm, ⟨25, _⟩ => ⟨S100000x128, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S100000, .f32⟩
  | .hbm, ⟨30, _⟩ => ⟨S625000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S100000x7, .f32⟩
  | .hbm, ⟨48, _⟩ => ⟨S1x7, .f32⟩
  | .hbm, ⟨49, _⟩ => ⟨S100000x7, .f32⟩
  | .hbm, ⟨50, _⟩ => ⟨S100000x7, .f32⟩
  | .hbm, ⟨51, _⟩ => ⟨S100000x6, .f32⟩
  | .hbm, ⟨52, _⟩ => ⟨S1x6, .f32⟩
  | .hbm, ⟨53, _⟩ => ⟨S100000x6, .f32⟩
  | .hbm, ⟨54, _⟩ => ⟨S100000x6, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x7, .f32⟩
  | .hbm, ⟨62, _⟩ => ⟨S100000x7, .f32⟩
  | .hbm, ⟨63, _⟩ => ⟨S100000x7, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S100000x1, .f32⟩
  | .hbm, ⟨68, _⟩ => ⟨S100000x7, .f32⟩
  | .hbm, ⟨69, _⟩ => ⟨S100000x7, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x6, .f32⟩
  | .hbm, ⟨77, _⟩ => ⟨S100000x6, .f32⟩
  | .hbm, ⟨78, _⟩ => ⟨S100000x6, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x6, .f32⟩
  | .hbm, ⟨84, _⟩ => ⟨S100000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v38 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v39 : Ref sig .tc := ⟨.hbm, 84, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  reducesTo_S100000x7_S100000_d1 : S100000x7.ReducesTo [1] S100000
  h_S_ : 0 < S_.numel
  bcast_S100000x1_S100000x7_0_1 : S100000x1.BroadcastsInDim S100000x7 (![0, 1] : Fin 2 → Fin S100000x7.rank)
  reducesTo_S100000x6_S100000_d1 : S100000x6.ReducesTo [1] S100000
  bcast_S100000x1_S100000x6_0_1 : S100000x1.BroadcastsInDim S100000x6 (![0, 1] : Fin 2 → Fin S100000x6.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x256_S100000x256_1_0_0_1_n_n_wf : DotDims.WF S100000x128 S128x256 S100000x256 [1] [0] [0] [1] [] []
  dot_S100000x256_S256x7_S100000x7_1_0_0_1_n_n_wf : DotDims.WF S100000x256 S256x7 S100000x7 [1] [0] [0] [1] [] []
  dot_S100000x256_S256x6_S100000x6_1_0_0_1_n_n_wf : DotDims.WF S100000x256 S256x6 S100000x6 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x7_S100000x7_1_0_0_1_n_n : DotDims S100000x256 S256x7 S100000x7 where
  lhsContracting := [1]
  rhsContracting := [0]
  lhsNonContracting := [0]
  rhsNonContracting := [1]
  lhsBatch := []
  rhsBatch := []
  wf := dot_S100000x256_S256x7_S100000x7_1_0_0_1_n_n_wf
def dot_S100000x256_S256x6_S100000x6_1_0_0_1_n_n : DotDims S100000x256 S256x6 S100000x6 where
  lhsContracting := [1]
  rhsContracting := [0]
  lhsNonContracting := [0]
  rhsNonContracting := [1]
  lhsBatch := []
  rhsBatch := []
  wf := dot_S100000x256_S256x6_S100000x6_1_0_0_1_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«133243_j91268055040046_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSage.lean ====
/-
  A mean-aggregating graph layer over the extended reals, for any extents: the dense layer max (A · Wl + X · Wr + b, 0)
  and the output projection H · Wo + bo as whole-array functions (`layerFn`, `outFn`), their host spelling
  (`host_layer`, `host_out`: dot_general, a bias broadcast from a vector, relu) and their block-body spelling
  (`block_layer`, `block_out`: operands narrowed to sixteen bits, products into zeros, a one-row bias), row locality
  (`layerAt_row`, `outAt_row`), and the mean by division against the mean by the reciprocal (`mean_div_eq_mul`,
  over `count_real`: a guarded count of scattered ones is a nonzero real).

  The arithmetic both programs share.

  A layer takes, for every node n, the mean A[n, :] of its in-neighbours' features and its own features X[n, :], and
  returns  max (A[n, :] · Wl + X[n, :] · Wr + b, 0);  the output projection returns  H[n, :] · Wo + bo.  Every entry of
  a layer's result depends on ONE row of A and of X, so the same formula describes a block of rows and the whole array.
  One program adds the bias before the second product and the other after it: addition of extended reals is commutative
  and associative, so the two orders agree at the infinities too.

  The mean divides each aggregated row by c[n] = max (number of edges into n, 1).  The count is a finite sum of ones, a
  real number, so c[n] is a real number that is at least 1; dividing an extended real by a nonzero real IS multiplying it
  by the reciprocal, so  a / c[n] = a · (1 / c[n])  for every extended real a.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«133243_j91268055040046_1_alg».proof.Proof.LibFinite
import proofs.«133243_j91268055040046_1_alg».proof.Proof.LibConsts
import proofs.«133243_j91268055040046_1_alg».proof.Proof.LibDotSum

noncomputable section

namespace Cert.Sage

open Idealize.ShloMosaic Idealize.ShloMosaic.ValueIdx Cert.LibFinite
open scoped BigOperators

variable {M K N : Nat}

/-! ## The layer and the output projection, entry by entry -/

/-- Entry (r, j) of a layer: the two row-by-column products, the bias, the positive part. -/
def layerAt (A X : (⟨2, ![M, K]⟩ : Shape).Idx → EReal) (Wl Wr : (⟨2, ![K, N]⟩ : Shape).Idx → EReal)
    (b : Fin N → EReal) (r : Fin M) (j : Fin N) : EReal :=
  max (((∑ k : Fin K, A (ix2 r k) * Wl (ix2 k j)) + ∑ k : Fin K, X (ix2 r k) * Wr (ix2 k j)) + b j) 0

/-- A layer as one array. -/
def layerFn (A X : (⟨2, ![M, K]⟩ : Shape).Idx → EReal) (Wl Wr : (⟨2, ![K, N]⟩ : Shape).Idx → EReal)
    (b : Fin N → EReal) : (⟨2, ![M, N]⟩ : Shape).Idx → EReal :=
  fun i => layerAt A X Wl Wr b (i 0) (i 1)

theorem layerFn_ix2 (A X : (⟨2, ![M, K]⟩ : Shape).Idx → EReal) (Wl Wr : (⟨2, ![K, N]⟩ : Shape).Idx → EReal)
    (b : Fin N → EReal) (r : Fin M) (j : Fin N) : layerFn A X Wl Wr b (ix2 r j) = layerAt A X Wl Wr b r j := rfl

/-- Entry (r, j) of the output projection. -/
def outAt (H : (⟨2, ![M, K]⟩ : Shape).Idx → EReal) (Wo : (⟨2, ![K, N]⟩ : Shape).Idx → EReal) (bo : Fin N → EReal)
    (r : Fin M) (j : Fin N) : EReal :=
  (∑ k : Fin K, H (ix2 r k) * Wo (ix2 k j)) + bo j

/-- The output projection as one array. -/
def outFn (H : (⟨2, ![M, K]⟩ : Shape).Idx → EReal) (Wo : (⟨2, ![K, N]⟩ : Shape).Idx → EReal) (bo : Fin N → EReal) :
    (⟨2, ![M, N]⟩ : Shape).Idx → EReal :=
  fun i => outAt H Wo bo (i 0) (i 1)

theorem outFn_ix2 (H : (⟨2, ![M, K]⟩ : Shape).Idx → EReal) (Wo : (⟨2, ![K, N]⟩ : Shape).Idx → EReal) (bo : Fin N → EReal)
    (r : Fin M) (j : Fin N) : outFn H Wo bo (ix2 r j) = outAt H Wo bo r j := rfl

/-- Row r of a block is row n of the array: a layer's entry in that row is the same number. -/
theorem layerAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (j : Fin N) : layerAt Ab Xb Wlb Wrb bb r j = layerAt A X Wl Wr b n j := by
  unfold layerAt
  rw [hb j]
  simp only [hA, hX, hWl, hWr]

/-- The same for the output projection. -/
theorem outAt_row {Mb : Nat} (Hb : (⟨2, ![Mb, K]⟩ : Shape).Idx → EReal) (H : (⟨2, ![M, K]⟩ : Shape).Idx → EReal)
    (Wob Wo : (⟨2, ![K, N]⟩ : Shape).Idx → EReal) (bob bo : Fin N → EReal) (r : Fin Mb) (n : Fin M)
    (hH : ∀ k, Hb (ix2 r k) = H (ix2 n k)) (hWo : ∀ k j, Wob (ix2 k j) = Wo (ix2 k j)) (hb : ∀ j, bob j = bo j)
    (j : Fin N) : outAt Hb Wob bob r j = outAt H Wo bo n j := by
  unfold outAt
  rw [hb j]
  simp only [hH, hWo]

/-! ## Bias rows and the zero splat read at an index -/

/-- A length-N vector laid out as one row and repeated down M rows reads, at (r, j), its entry j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_apply ![0, 1] h2 _ (ix2 r j) (ix2 (0 : Fin 1) j) (fun ax => by
    match ax with
    | ⟨0, _⟩ => rfl
    | ⟨1, _⟩ =>
      show j.val = if N = 1 then 0 else j.val
      split
      · have := j.isLt; omega
      · rfl)]
  exact broadcastInDim_apply ![1] h1 v (ix2 (0 : Fin 1) j) (ix1 j) (fun ax => by
    match ax with
    | ⟨0, _⟩ =>
      show j.val = if N = 1 then 0 else j.val
      split
      · have := j.isLt; omega
      · rfl)

/-! ## The host's spelling of a layer and of the output projection -/

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + b) + X · Wr, then the positive part: the layer, the bias moved past the second product. -/
theorem host_layer (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl)
        (broadcastInDim ⟨2, ![M, N]⟩ ![0, 1] h2 (broadcastInDim ⟨2, ![1, N]⟩ ![1] h1 bv)))
        (Host.dotGeneral d none X Wr))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j)
      + broadcastInDim ⟨2, ![M, N]⟩ ![0, 1] h2 (broadcastInDim ⟨2, ![1, N]⟩ ![1] h1 bv) (ix2 r j))
      + Host.dotGeneral d none X Wr (ix2 r j)) (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  unfold layerAt
  rw [add_right_comm]

include hlc hrc hln hrn hlb hrb in
/-- H · Wo + bo: the output projection. -/
theorem host_out (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = outFn H Wo (fun j => bv (ix1 j)) := by
  funext i
  obtain ⟨r, j, rfl⟩ : ∃ (r : Fin M) (j : Fin N), i = ix2 r j := ⟨i 0, i 1, eq_ix2 i⟩
  show Host.dotGeneral d none H Wo (ix2 r j)
      + broadcastInDim ⟨2, ![M, N]⟩ ![0, 1] h2 (broadcastInDim ⟨2, ![1, N]⟩ ![1] h1 bv) (ix2 r j) = outAt H Wo (fun j => bv (ix1 j)) r j
  rw [Cert.Lib.dotGeneral_rc_apply d hlc hrc hln hrn hlb hrb, bias_apply]
  rfl

end Host

/-! ## A block body's spelling of a layer and of the output projection -/

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- (A · Wl + X · Wr) + b, then the positive part, the four operands narrowed to sixteen bits first (no change over
    the extended reals) and each product accumulated into zeros. -/
theorem block_layer (hbits : FTy.bf16.bits < FTy.f32.bits) (A X : FVec Ideal ⟨2, ![M, K]⟩ .f32) (Wl Wr : FVec Ideal ⟨2, ![K, N]⟩ .f32)
    (b : FVec Ideal ⟨2, ![1, N]⟩ .f32) :
    maximumf (addf (addf
        (matmul d none (truncf .bf16 A hbits) (truncf .bf16 Wl hbits) (constant ⟨2, ![M, N]⟩ .f32 0x00000000#32))
        (matmul d none (truncf .bf16 X hbits) (truncf .bf16 Wr hbits) (constant ⟨2, ![M, N]⟩ .f32 0x00000000#32)))
        (broadcastTo ⟨2, ![M, N]⟩ b hb))
      (broadcast ⟨2, ![M, N]⟩ (Scalar.ofBits (F := Ideal) .f32 0x00000000#32))
    = layerFn A X Wl Wr (fun j => b (ix2 (0 : Fin 1) j)) := by
  funext i
  obtain ⟨r, j, rfl⟩ : ∃ (r : Fin M) (j : Fin N), i = ix2 r j := ⟨i 0, i 1, eq_ix2 i⟩
  show max ((matmul d none (truncf .bf16 A hbits) (truncf .bf16 Wl hbits) (constant ⟨2, ![M, N]⟩ .f32 0x00000000#32) (ix2 r j)
      + matmul d none (truncf .bf16 X hbits) (truncf .bf16 Wr hbits) (constant ⟨2, ![M, N]⟩ .f32 0x00000000#32) (ix2 r j))
      + broadcastTo ⟨2, ![M, N]⟩ b hb (ix2 r j)) (Ideal.ofBits .f32 0x00000000#32) = layerAt A X Wl Wr (fun j => b (ix2 (0 : Fin 1) j)) r j
  rw [Cert.Lib.matmul_rc_apply d hlc hrc hln hrn hlb hrb, Cert.Lib.matmul_rc_apply d hlc hrc hln hrn hlb hrb,
    broadcastTo_1b_ab_apply, Cert.LibConsts.ofBits_zero]
  rfl

include hlc hrc hln hrn hlb hrb in
/-- H · Wo + bo with H and Wo narrowed first and the product accumulated into zeros. -/
theorem block_out (hbits : FTy.bf16.bits < FTy.f32.bits) (H : FVec Ideal ⟨2, ![M, K]⟩ .f32) (Wo : FVec Ideal ⟨2, ![K, N]⟩ .f32)
    (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = outFn H Wo (fun j => b (ix2 (0 : Fin 1) j)) := by
  funext i
  obtain ⟨r, j, rfl⟩ : ∃ (r : Fin M) (j : Fin N), i = ix2 r j := ⟨i 0, i 1, eq_ix2 i⟩
  show matmul d none (truncf .bf16 H hbits) (truncf .bf16 Wo hbits) (constant ⟨2, ![M, N]⟩ .f32 0x00000000#32) (ix2 r j)
      + broadcastTo ⟨2, ![M, N]⟩ b hb (ix2 r j) = outAt H Wo (fun j => b (ix2 (0 : Fin 1) j)) r j
  rw [Cert.Lib.matmul_rc_apply d hlc hrc hln hrn hlb hrb, broadcastTo_1b_ab_apply]
  rfl

end Block

/-! ## The in-degree, and the mean by division and by the reciprocal -/

/-- max (number of updates landing on n, 1) is a real number other than zero: ones accumulated into zeros. -/
theorem count_real {sN sE1 sE : Shape} {w : Nat} (sc : ScatterDims sN sE1 sE) (idx : IVec sE1 w)
    (Z One : FVec Ideal sN .f32) (O : FVec Ideal sE .f32) (hZ : ∀ n, Z n = 0) (hO : ∀ j, O j = 1)
    (hOne : ∀ n, One n = 1) (n : sN.Idx) :
    ∃ r : ℝ, r ≠ 0 ∧ maximumf (Host.scatterAdd sc Z idx O) One n = (r : EReal) := by
  have hs : IsFin (Host.scatterAdd sc Z idx O n) := by
    show IsFin (Z n + ∑ j ∈ Finset.univ.filter (fun j => sc.resultIdx? j idx = some n), O j)
    rw [hZ]
    exact isFin_zero.add (isFin_sum _ _ fun j _ => by rw [hO]; exact isFin_one)
  obtain ⟨a, ha⟩ := isFin_iff.mp hs
  refine ⟨max a 1, (lt_of_lt_of_le one_pos (le_max_right a 1)).ne', ?_⟩
  show max (Host.scatterAdd sc Z idx O n) (One n) = _
  rw [ha, hOne, ← EReal.coe_one]
  exact (EReal.coe_strictMono.monotone.map_max).symm

/-- Two broadcasts in a row read their operand at one index. -/
theorem bcast2_reads {sN sN1 sNW : Shape} {d1 : Fin sN.rank → Fin sN1.rank} (h1 : sN.BroadcastsInDim sN1 d1)
    {d2 : Fin sN1.rank → Fin sNW.rank} (h2 : sN1.BroadcastsInDim sNW d2) :
    ∃ π : sNW.Idx → sN.Idx, ∀ (v : sN.Idx → EReal) (i : sNW.Idx),
      broadcastInDim sNW d2 h2 (broadcastInDim sN1 d1 h1 v) i = v (π i) :=
  ⟨_, fun _ _ => rfl⟩

/-- Dividing the aggregate by the guarded in-degree is multiplying it by the guarded in-degree's reciprocal. -/
theorem mean_div_eq_mul {s0 sN sN1 sNW sE1 sE : Shape} {w : Nat} (sc : ScatterDims sN sE1 sE) (idx : IVec sE1 w)
    {d0N : Fin s0.rank → Fin sN.rank} (h0N : s0.BroadcastsInDim sN d0N)
    {d0E : Fin s0.rank → Fin sE.rank} (h0E : s0.BroadcastsInDim sE d0E)
    {d1 : Fin sN.rank → Fin sN1.rank} (h1 : sN.BroadcastsInDim sN1 d1)
    {d2 : Fin sN1.rank → Fin sNW.rank} (h2 : sN1.BroadcastsInDim sNW d2) (agg : FVec Ideal sNW .f32) :
    Host.divf agg (broadcastInDim sNW d2 h2 (broadcastInDim sN1 d1 h1
      (maximumf (Host.scatterAdd sc (broadcastInDim sN d0N h0N (constant s0 .f32 0x00000000#32)) idx
          (broadcastInDim sE d0E h0E (constant s0 .f32 0x3F800000#32)))
        (broadcastInDim sN d0N h0N (constant s0 .f32 0x3F800000#32)))))
    = mulf agg (broadcastInDim sNW d2 h2 (broadcastInDim sN1 d1 h1
      (Host.divf (broadcastInDim sN d0N h0N (constant s0 .f32 0x3F800000#32))
        (maximumf (Host.scatterAdd sc (broadcastInDim sN d0N h0N (constant s0 .f32 0x00000000#32)) idx
            (broadcastInDim sE d0E h0E (constant s0 .f32 0x3F800000#32)))
          (broadcastInDim sN d0N h0N (constant s0 .f32 0x3F800000#32)))))) := by
  obtain ⟨π, hπ⟩ := bcast2_reads h1 h2
  funext i
  show Ideal.div (agg i) (broadcastInDim sNW d2 h2 (broadcastInDim sN1 d1 h1 _) i)
    = agg i * broadcastInDim sNW d2 h2 (broadcastInDim sN1 d1 h1 _) i
  rw [hπ, hπ]
  obtain ⟨r, hr, hc⟩ := count_real sc idx (broadcastInDim sN d0N h0N (constant s0 .f32 0x00000000#32))
    (broadcastInDim sN d0N h0N (constant s0 .f32 0x3F800000#32)) (broadcastInDim sE d0E h0E (constant s0 .f32 0x3F800000#32))
    (fun _ => Cert.LibConsts.ofBits_zero) (fun _ => Cert.LibConsts.ofBits_one) (fun _ => Cert.LibConsts.ofBits_one) (π i)
  show Ideal.div (agg i) _ = agg i * Ideal.div (Ideal.ofBits .f32 0x3F800000#32) _
  rw [hc, Cert.LibConsts.ofBits_one, Ideal.div_coe hr, Ideal.div_coe hr, one_mul]

end Cert.Sage

end
-- ==== Proof.LibRowOps.lean ====
/-
  Reductions along the rows of an [R, L] array, and the column they leave, read at an index over the extended reals.
  A kernel reduces a block's rows with a lane reduction into an [R] vector, casts it to a column [R, 1] and broadcasts the
  column back over the L lanes; a host program reduces the array over axis 1. Each spelling is read here at a row p (and a
  lane c) as a fold or a sum over the row's entries x (p, k), for any extents.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {R L : Nat} {φ : FTy}

/-- The source index over the reduced index p with k inserted on axis 1 is (p, k). -/
theorem lift_row (h : Shape.Reduces ⟨2, ![R, L]⟩ [1] ⟨1, ![R]⟩) (p : Fin R) (k : Fin L) :
    h.lift (ix1 p) k = ix2 p k := by
  funext a
  apply Fin.ext
  match a with
  | ⟨0, _⟩ => rfl
  | ⟨1, _⟩ => rfl

/-- A lane maximum of an [R, L] block at row p: the fold of max from the accumulator's value over the row. -/
theorem laneMax_apply (x : FVec Ideal ⟨2, ![R, L]⟩ φ) (acc : BitVec φ.bits)
    (h : Shape.Reduces ⟨2, ![R, L]⟩ [1] ⟨1, ![R]⟩) (hφ : FKind.Formats φ) (hacc : acc = FKind.maximumf.neutral φ hφ)
    (p : Fin R) :
    multiReduction .maximumf [1] ⟨1, ![R]⟩ x acc h hφ hacc (ix1 p)
      = (Finset.univ : Finset (Fin L)).fold max (Ideal.ofBits φ acc) (fun k => x (ix2 p k)) := by
  rw [Ideal.multiReduction_maximumf_single]
  have e : (x ∘ h.lift (ix1 p)) = fun k : Fin ((⟨2, ![R, L]⟩ : Shape).size 1) => x (ix2 p k) :=
    funext fun k => congrArg x (lift_row h p k)
  rw [e]
  rfl

/-- A lane sum of an [R, L] block at row p: the sum of the row. -/
theorem laneSum_apply (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (p : Fin R) :
    multiReduction .add [1] ⟨1, ![R]⟩ x acc h hφ hacc (ix1 p) = ∑ k : Fin L, x (ix2 p k) := by
  rw [Ideal.multiReduction_add_single]
  show ∑ k : Fin L, x (h.lift (ix1 p) k) = _
  exact Finset.sum_congr rfl fun k _ => congrArg x (lift_row h p k)

/-- The host's maximum over axis 1 at row p: the fold of max from the initial value over the row. -/
theorem hostRowMax_apply {u : Shape} (x : (⟨2, ![R, L]⟩ : Shape).Idx → Ideal φ) (init : u.Idx → Ideal φ)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduce FloatOps.maximumf x init h' hu (ix1 p)
      = (Finset.univ : Finset (Fin L)).fold max (init (Shape.Idx.first hu)) (fun k => x (ix2 p k)) := by
  rw [Host.reduce_eq_fold_single FloatOps.maximumf x init h' h hu]
  have e : (x ∘ h.lift (ix1 p)) = fun k : Fin ((⟨2, ![R, L]⟩ : Shape).size 1) => x (ix2 p k) :=
    funext fun k => congrArg x (lift_row h p k)
  rw [e]
  rfl

/-- An [R] vector cast to a column [R, 1], at (p, 0). -/
theorem shapeCast_column_apply {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A column [R, 1] broadcast over L lanes, at (p, c): the column's entry at row p. -/
theorem broadcastTo_column_apply {α : Type} (v : (⟨2, ![R, 1]⟩ : Shape).Idx → α)
    (h : (⟨2, ![R, 1]⟩ : Shape).Broadcasts ⟨2, ![R, L]⟩) (p : Fin R) (c : Fin L) :
    broadcastTo ⟨2, ![R, L]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A one-entry array [1, 1] broadcast to [R, L], at any index: its entry. -/
theorem broadcastTo_one_apply {α : Type} (v : (⟨2, ![1, 1]⟩ : Shape).Idx → α)
    (h : (⟨2, ![1, 1]⟩ : Shape).Broadcasts ⟨2, ![R, L]⟩) (p : Fin R) (c : Fin L) :
    broadcastTo ⟨2, ![R, L]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib

end
-- ==== Proof.LibRowSoftmax.lean ====
/-
  The softmax of each row of an [R, L] array over the extended reals, in a kernel's spelling and in a host program's,
  each read at an entry (p, q), for any extents.
  Both spellings subtract from the row its maximum (a fold of max started at the f32 word of -∞, joined once more with
  that word), exponentiate, and divide by the row's sum of exponentials. A kernel takes the maximum and the sum by lane
  reductions into [R], casts to a column [R, 1] and broadcasts the column over the lanes; a host program reduces over
  axis 1 from a rank-0 initial value and broadcasts [R] → [R, 1] → [R, L]. At an entry both are the one row function
  `rowSoftmax` of the row's entries.
-/
import proofs.«133243_j91268055040046_1_alg».proof.Proof.LibRowOps

noncomputable section

namespace Cert.Lib

open Idealize.ShloMosaic Idealize.ShloMosaic.ValueIdx

variable {R L : Nat}

/-- A row's maximum as both programs take it: the fold of max over the row from the word of -∞, joined with that word. -/
def rowTop (x : Fin L → EReal) : EReal :=
  max (Ideal.ofBits .f32 0xFF800000#32) ((Finset.univ : Finset (Fin L)).fold max (Ideal.ofBits .f32 0xFF800000#32) x)

/-- The softmax of a row: exp (x i − top) over the sum of the row's exp (x l − top), by the total division. -/
def rowSoftmax (x : Fin L → EReal) (i : Fin L) : EReal :=
  Ideal.div (Ideal.exp (x i - rowTop x)) (∑ l : Fin L, Ideal.exp (x l - rowTop x))

/-! ## The kernel's spelling -/

/-- The kernel's row maximum, carried back to every lane of its row. -/
theorem laneTop_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    broadcastTo ⟨2, ![R, L]⟩ (shapeCast ⟨2, ![R, 1]⟩ (maximumf (broadcast ⟨1, ![R]⟩ (FloatOps.ofBits .f32 0xFF800000#32))
        (multiReduction .maximumf [1] ⟨1, ![R]⟩ x 0xFF800000#32 hr hφ hmax)) hc) hb (ix2 p q)
      = rowTop fun k => x (ix2 p k) := by
  rw [broadcastTo_column_apply, shapeCast_column_apply, maximumf_apply, broadcast_apply, laneMax_apply]
  rfl

/-- The kernel's softmax of a block's rows, at (p, q). -/
theorem laneSoftmax_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    divf
        (exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)))
        (broadcastTo ⟨2, ![R, L]⟩ (shapeCast ⟨2, ![R, 1]⟩ (multiReduction .add [1] ⟨1, ![R]⟩
          (exp (subf x (broadcastTo ⟨2, ![R, L]⟩ (shapeCast ⟨2, ![R, 1]⟩ (maximumf (broadcast ⟨1, ![R]⟩ (FloatOps.ofBits .f32 0xFF800000#32))
            (multiReduction .maximumf [1] ⟨1, ![R]⟩ x 0xFF800000#32 hr hφ hmax)) hc) hb)))
          0x00000000#32 hr hφ hadd) hc) hb)
        (ix2 p q)
      = rowSoftmax (fun k => x (ix2 p k)) q := by
  have hexp : ∀ c : Fin L,
      exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)) (ix2 p c)
        = Ideal.exp (x (ix2 p c) - rowTop fun k => x (ix2 p k)) := fun c =>
    congrArg (fun t => Ideal.exp (x (ix2 p c) - t)) (laneTop_apply x hr hφ hmax hc hb p c)
  rw [divf_apply, hexp q, broadcastTo_column_apply, shapeCast_column_apply, laneSum_apply]
  unfold rowSoftmax
  exact congrArg _ (Finset.sum_congr rfl fun c _ => hexp c)

/-! ## The host's spelling -/

/-- A rank-0 value broadcast to [R], at any entry. -/
theorem broadcastInDim_scalar_vec_apply {α : Type} (v : (⟨0, ![]⟩ : Shape).Idx → α)
    (h : (⟨0, ![]⟩ : Shape).BroadcastsInDim ⟨1, ![R]⟩ (![] : Fin 0 → Fin 1)) (p : Fin R) :
    broadcastInDim ⟨1, ![R]⟩ ![] h v (ix1 p) = v ix0 :=
  broadcastInDim_apply _ h v (ix1 p) ix0 fun a => a.elim0

/-- An [R] vector broadcast along axis 0 of a column [R, 1], at (p, z). -/
theorem broadcastInDim_vec_column_apply {α : Type} (v : (⟨1, ![R]⟩ : Shape).Idx → α)
    (h : (⟨1, ![R]⟩ : Shape).BroadcastsInDim ⟨2, ![R, 1]⟩ (![0] : Fin 1 → Fin 2)) (p : Fin R) (z : Fin 1) :
    broadcastInDim ⟨2, ![R, 1]⟩ ![0] h v (ix2 p z) = v (ix1 p) := by
  refine broadcastInDim_apply _ h v (ix2 p z) (ix1 p) fun a => ?_
  match a with
  | ⟨0, _⟩ =>
    show p.val = if R = 1 then 0 else p.val
    split
    · have := p.isLt; omega
    · rfl

/-- A column [R, 1] broadcast to [R, L] along both axes, at (p, c). -/
theorem broadcastInDim_column_apply {α : Type} (v : (⟨2, ![R, 1]⟩ : Shape).Idx → α)
    (h : (⟨2, ![R, 1]⟩ : Shape).BroadcastsInDim ⟨2, ![R, L]⟩ (![0, 1] : Fin 2 → Fin 2)) (p : Fin R) (c : Fin L) :
    broadcastInDim ⟨2, ![R, L]⟩ ![0, 1] h v (ix2 p c) = v (ix2 p (0 : Fin 1)) := by
  refine broadcastInDim_apply _ h v (ix2 p c) (ix2 p (0 : Fin 1)) fun a => ?_
  match a with
  | ⟨0, _⟩ =>
    show p.val = if R = 1 then 0 else p.val
    split
    · have := p.isLt; omega
    · rfl
  | ⟨1, _⟩ => rfl

/-- The host's sum over axis 1 at row p: the initial value plus the sum of the row. -/
theorem hostRowSum_apply {u : Shape} (x : (⟨2, ![R, L]⟩ : Shape).Idx → Ideal .f32) (init : u.Idx → Ideal .f32)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduceAdd x init h' hu (ix1 p) = init (Shape.Idx.first hu) + ∑ k : Fin L, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

/-- The host's row maximum, carried back to every entry of its row. -/
theorem hostTop_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    broadcastInDim ⟨2, ![R, L]⟩ ![0, 1] h2 (broadcastInDim ⟨2, ![R, 1]⟩ ![0] h1
        (maximumf (broadcastInDim ⟨1, ![R]⟩ ![] h0 (constant (F := Ideal) ⟨0, ![]⟩ .f32 0xFF800000#32))
          (Host.reduce FloatOps.maximumf x (constant (F := Ideal) ⟨0, ![]⟩ .f32 0xFF800000#32) h' hu))) (ix2 p q)
      = rowTop fun k => x (ix2 p k) := by
  rw [broadcastInDim_column_apply, broadcastInDim_vec_column_apply, maximumf_apply, broadcastInDim_scalar_vec_apply,
    hostRowMax_apply x _ h' hr hu p]
  rfl

/-- The host's softmax over axis 1, at (p, q). -/
theorem hostSoftmax_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    Host.divf
        (Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))))
        (broadcastInDim ⟨2, ![R, L]⟩ ![0, 1] h2 (broadcastInDim ⟨2, ![R, 1]⟩ ![0] h1
          (Host.reduceAdd
            (Host.exp (subf x (broadcastInDim ⟨2, ![R, L]⟩ ![0, 1] h2 (broadcastInDim ⟨2, ![R, 1]⟩ ![0] h1
              (maximumf (broadcastInDim ⟨1, ![R]⟩ ![] h0 (constant (F := Ideal) ⟨0, ![]⟩ .f32 0xFF800000#32))
                (Host.reduce FloatOps.maximumf x (constant (F := Ideal) ⟨0, ![]⟩ .f32 0xFF800000#32) h' hu))))))
            (constant (F := Ideal) ⟨0, ![]⟩ .f32 0x00000000#32) h' hu)))
        (ix2 p q)
      = rowSoftmax (fun k => x (ix2 p k)) q := by
  have hexp : ∀ c : Fin L,
      Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))) (ix2 p c)
        = Ideal.exp (x (ix2 p c) - rowTop fun k => x (ix2 p k)) := fun c =>
    congrArg (fun t => Ideal.exp (x (ix2 p c) - t)) (hostTop_apply x h' hr hu h0 h1 h2 p c)
  show Ideal.div _ _ = _
  rw [hexp q, broadcastInDim_column_apply, broadcastInDim_vec_column_apply, hostRowSum_apply _ _ h' hr hu p]
  unfold rowSoftmax
  refine congrArg _ ?_
  rw [constant_apply, Ideal.ofBits_zero_f32, zero_add]
  exact Finset.sum_congr rfl fun c _ => hexp c

end Cert.Lib

end
-- ==== Proof.LibRowLogSoftmax.lean ====
/-
  The log-softmax of each row of an [R, L] array over the extended reals, in a kernel's spelling and in a host program's,
  each read at an entry (p, q), for any extents.
  Both spellings subtract from the row its maximum, and then subtract the logarithm of the row's sum of exponentials of
  the shifted entries:

      y (p, q) = (x (p, q) - top p) - log (sum over l of exp (x (p, l) - top p)).

  A kernel takes the maximum by a lane reduction started at the f32 word of -∞; a host program reduces over axis 1 from
  the same word and joins the result with that word once more. A fold of max is never below the value it starts from, so
  the extra join changes nothing and both maxima are the row function `rowTop`. The sums, the column casts and the
  broadcasts are read as in the softmax file beside this one, so at an entry both spellings are the one row function
  `rowLogSoftmax` of the row's entries.
-/
import proofs.«133243_j91268055040046_1_alg».proof.Proof.LibRowSoftmax

noncomputable section

namespace Cert.Lib

open Idealize.ShloMosaic Idealize.ShloMosaic.ValueIdx

variable {R L : Nat}

/-- The log-softmax of a row: the shifted entry minus the logarithm of the row's sum of shifted exponentials. -/
def rowLogSoftmax (x : Fin L → EReal) (i : Fin L) : EReal :=
  (x i - rowTop x) - Ideal.log (∑ l : Fin L, Ideal.exp (x l - rowTop x))

/-- Joining a fold of max with the value it started from changes nothing: the fold is already at least that value. -/
theorem rowTop_eq_fold (x : Fin L → EReal) :
    rowTop x = (Finset.univ : Finset (Fin L)).fold max (Ideal.ofBits .f32 0xFF800000#32) x :=
  max_eq_right ((Finset.le_fold_max _).mpr (Or.inl le_rfl))

/-- The log-softmax of a row depends on the row's entries only. -/
theorem rowLogSoftmax_congr (x y : Fin L → EReal) (h : ∀ k, x k = y k) (i : Fin L) :
    rowLogSoftmax x i = rowLogSoftmax y i := by
  rw [show x = y from funext h]

/-- A kernel's logarithm of an array, at an index: the logarithm of the entry. -/
theorem log_at {s : Shape} (v : FVec Ideal s .f32) (i : s.Idx) : log v i = Ideal.log (v i) := rfl

/-- A host program's logarithm of an array, at an index: the same function of the entry. -/
theorem hostLog_at {s : Shape} (v : FVec Ideal s .f32) (i : s.Idx) : Host.log v i = Ideal.log (v i) := rfl

/-! ## The kernel's spelling -/

/-- The kernel's row maximum (no second join), carried back to every lane of its row. -/
theorem laneMaxBack_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    broadcastTo ⟨2, ![R, L]⟩ (shapeCast ⟨2, ![R, 1]⟩
        (multiReduction .maximumf [1] ⟨1, ![R]⟩ x 0xFF800000#32 hr hφ hmax) hc) hb (ix2 p q)
      = rowTop fun k => x (ix2 p k) := by
  rw [broadcastTo_column_apply, shapeCast_column_apply, laneMax_apply, rowTop_eq_fold]

/-- The kernel's log-softmax of a block's rows, at (p, q). -/
theorem laneLogSoftmax_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    subf
        (subf x (broadcastTo ⟨2, ![R, L]⟩ (shapeCast ⟨2, ![R, 1]⟩
          (multiReduction .maximumf [1] ⟨1, ![R]⟩ x 0xFF800000#32 hr hφ hmax) hc) hb))
        (broadcastTo ⟨2, ![R, L]⟩ (log (shapeCast ⟨2, ![R, 1]⟩ (multiReduction .add [1] ⟨1, ![R]⟩
          (exp (subf x (broadcastTo ⟨2, ![R, L]⟩ (shapeCast ⟨2, ![R, 1]⟩
            (multiReduction .maximumf [1] ⟨1, ![R]⟩ x 0xFF800000#32 hr hφ hmax) hc) hb)))
          0x00000000#32 hr hφ hadd) hc)) hb)
        (ix2 p q)
      = rowLogSoftmax (fun k => x (ix2 p k)) q := by
  have hshift : ∀ c : Fin L,
      subf x (broadcastTo ⟨2, ![R, L]⟩ (shapeCast ⟨2, ![R, 1]⟩
          (multiReduction .maximumf [1] ⟨1, ![R]⟩ x 0xFF800000#32 hr hφ hmax) hc) hb) (ix2 p c)
        = x (ix2 p c) - rowTop fun k => x (ix2 p k) := fun c =>
    congrArg (fun t => x (ix2 p c) - t) (laneMaxBack_apply x hr hφ hmax hc hb p c)
  have hexp : ∀ c : Fin L,
      exp (subf x (broadcastTo ⟨2, ![R, L]⟩ (shapeCast ⟨2, ![R, 1]⟩
          (multiReduction .maximumf [1] ⟨1, ![R]⟩ x 0xFF800000#32 hr hφ hmax) hc) hb)) (ix2 p c)
        = Ideal.exp (x (ix2 p c) - rowTop fun k => x (ix2 p k)) := fun c =>
    congrArg Ideal.exp (hshift c)
  rw [subf_apply, hshift q, broadcastTo_column_apply, log_at, shapeCast_column_apply, laneSum_apply]
  unfold rowLogSoftmax
  exact congrArg (fun t => _ - Ideal.log t) (Finset.sum_congr rfl fun c _ => hexp c)

/-! ## The host's spelling -/

/-- The host's log-softmax over axis 1, at (p, q). -/
theorem hostLogSoftmax_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    subf
        (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu)))))
        (broadcastInDim ⟨2, ![R, L]⟩ ![0, 1] h2 (Host.log (broadcastInDim ⟨2, ![R, 1]⟩ ![0] h1
          (Host.reduceAdd
            (Host.exp (subf x (broadcastInDim ⟨2, ![R, L]⟩ ![0, 1] h2 (broadcastInDim ⟨2, ![R, 1]⟩ ![0] h1
              (maximumf (broadcastInDim ⟨1, ![R]⟩ ![] h0 (constant (F := Ideal) ⟨0, ![]⟩ .f32 0xFF800000#32))
                (Host.reduce FloatOps.maximumf x (constant (F := Ideal) ⟨0, ![]⟩ .f32 0xFF800000#32) h' hu))))))
            (constant (F := Ideal) ⟨0, ![]⟩ .f32 0x00000000#32) h' hu))))
        (ix2 p q)
      = rowLogSoftmax (fun k => x (ix2 p k)) q := by
  have hshift : ∀ c : Fin L,
      subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu)))) (ix2 p c)
        = x (ix2 p c) - rowTop fun k => x (ix2 p k) := fun c =>
    congrArg (fun t => x (ix2 p c) - t) (hostTop_apply x h' hr hu h0 h1 h2 p c)
  have hexp : ∀ c : Fin L,
      Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))) (ix2 p c)
        = Ideal.exp (x (ix2 p c) - rowTop fun k => x (ix2 p k)) := fun c =>
    congrArg Ideal.exp (hshift c)
  rw [subf_apply, hshift q, broadcastInDim_column_apply, hostLog_at, broadcastInDim_vec_column_apply,
    hostRowSum_apply _ _ h' hr hu p]
  unfold rowLogSoftmax
  rw [constant_apply, Ideal.ofBits_zero_f32, zero_add]
  exact congrArg (fun t => (x (ix2 p q) - rowTop fun k => x (ix2 p k)) - Ideal.log t)
    (Finset.sum_congr rfl fun c _ => hexp c)

end Cert.Lib

end
-- ==== Proof.LibSageLogHead.lean ====
/-
  A classifier head on a mean-aggregating graph layer, over the extended reals, for any extents:

      head (n, q) = logsoftmax over q of ( max (A[n, :] · Wl + X[n, :] · Wr + b, 0) · Wo + bo ) (n, q),

  the layer and the projection of the file beside this one followed by the log-softmax of each row. Entry (n, q)
  depends on row n of A and of X only, so the same formula describes a block of rows and the whole array
  (`headAt_row`). A program computes the logits P first and then takes the log-softmax of P's rows, a host program by
  reductions over axis 1 and broadcasts back, a kernel by lane reductions, a column cast and a broadcast over the lanes:
  once P is known to be the projection of the layer, either spelling is the head (`host_head_of`, `block_head_of`).
-/
import proofs.«133243_j91268055040046_1_alg».proof.Proof.LibSage
import proofs.«133243_j91268055040046_1_alg».proof.Proof.LibRowLogSoftmax

noncomputable section

namespace Cert.Sage

open Idealize.ShloMosaic Idealize.ShloMosaic.ValueIdx Cert.Lib
open scoped BigOperators

variable {M K N C : Nat}

/-- Entry (r, q) of a head: the log-softmax, at q, of row r of the projected layer. -/
def headAt (A X : (⟨2, ![M, K]⟩ : Shape).Idx → EReal) (Wl Wr : (⟨2, ![K, N]⟩ : Shape).Idx → EReal) (b : Fin N → EReal)
    (Wo : (⟨2, ![N, C]⟩ : Shape).Idx → EReal) (bo : Fin C → EReal) (r : Fin M) (q : Fin C) : EReal :=
  rowLogSoftmax (fun k => outAt (layerFn A X Wl Wr b) Wo bo r k) q

/-- A head as one array. -/
def headFn (A X : (⟨2, ![M, K]⟩ : Shape).Idx → EReal) (Wl Wr : (⟨2, ![K, N]⟩ : Shape).Idx → EReal) (b : Fin N → EReal)
    (Wo : (⟨2, ![N, C]⟩ : Shape).Idx → EReal) (bo : Fin C → EReal) : (⟨2, ![M, C]⟩ : Shape).Idx → EReal :=
  fun i => headAt A X Wl Wr b Wo bo (i 0) (i 1)

theorem headFn_ix2 (A X : (⟨2, ![M, K]⟩ : Shape).Idx → EReal) (Wl Wr : (⟨2, ![K, N]⟩ : Shape).Idx → EReal)
    (b : Fin N → EReal) (Wo : (⟨2, ![N, C]⟩ : Shape).Idx → EReal) (bo : Fin C → EReal) (r : Fin M) (q : Fin C) :
    headFn A X Wl Wr b Wo bo (ix2 r q) = headAt A X Wl Wr b Wo bo r q := rfl

/-- Row r of a block is row n of the array: a head's entry in that row is the same number. -/
theorem headAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal)
    (Wob Wo : (⟨2, ![N, C]⟩ : Shape).Idx → EReal) (bob bo : Fin C → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (hWo : ∀ k j, Wob (ix2 k j) = Wo (ix2 k j)) (hbo : ∀ j, bob j = bo j) (q : Fin C) :
    headAt Ab Xb Wlb Wrb bb Wob bob r q = headAt A X Wl Wr b Wo bo n q := by
  unfold headAt
  refine rowLogSoftmax_congr _ _ (fun k => ?_) q
  exact outAt_row (layerFn Ab Xb Wlb Wrb bb) (layerFn A X Wl Wr b) Wob Wo bob bo r n
    (fun j => layerAt_row Ab Xb A X Wlb Wrb Wl Wr bb b r n hA hX hWl hWr hb j) hWo hbo k

/-- A head depends on its seven operands entry by entry. -/
theorem headFn_congr (A A' X X' : (⟨2, ![M, K]⟩ : Shape).Idx → EReal) (Wl Wl' Wr Wr' : (⟨2, ![K, N]⟩ : Shape).Idx → EReal)
    (b b' : Fin N → EReal) (Wo Wo' : (⟨2, ![N, C]⟩ : Shape).Idx → EReal) (bo bo' : Fin C → EReal)
    (hA : A = A') (hX : X = X') (hWl : Wl = Wl') (hWr : Wr = Wr') (hb : ∀ j, b j = b' j) (hWo : Wo = Wo')
    (hbo : ∀ j, bo j = bo' j) : headFn A X Wl Wr b Wo bo = headFn A' X' Wl' Wr' b' Wo' bo' := by
  subst hA hX hWl hWr hWo
  rw [show b = b' from funext hb, show bo = bo' from funext hbo]

/-! ## The two spellings of the log-softmax over known logits -/

/-- The host's log-softmax of logits P that are the projection of the layer: the head. -/
theorem host_head_of (A X : (⟨2, ![M, K]⟩ : Shape).Idx → EReal) (Wl Wr : (⟨2, ![K, N]⟩ : Shape).Idx → EReal)
    (b : Fin N → EReal) (Wo : (⟨2, ![N, C]⟩ : Shape).Idx → EReal) (bo : Fin C → EReal)
    (P : (⟨2, ![M, C]⟩ : Shape).Idx → Ideal .f32) (hP : P = outFn (layerFn A X Wl Wr b) Wo bo)
    (h' : Shape.ReducesTo ⟨2, ![M, C]⟩ [1] ⟨1, ![M]⟩) (hr : Shape.Reduces ⟨2, ![M, C]⟩ [1] ⟨1, ![M]⟩)
    (hu : 0 < (⟨0, ![]⟩ : Shape).numel)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) :
    subf
        (subf P (broadcastInDim ⟨2, ![M, C]⟩ ![0, 1] h2 (broadcastInDim ⟨2, ![M, 1]⟩ ![0] h1
          (maximumf (broadcastInDim ⟨1, ![M]⟩ ![] h0 (constant (F := Ideal) ⟨0, ![]⟩ .f32 0xFF800000#32))
            (Host.reduce FloatOps.maximumf P (constant (F := Ideal) ⟨0, ![]⟩ .f32 0xFF800000#32) h' hu)))))
        (broadcastInDim ⟨2, ![M, C]⟩ ![0, 1] h2 (Host.log (broadcastInDim ⟨2, ![M, 1]⟩ ![0] h1
          (Host.reduceAdd
            (Host.exp (subf P (broadcastInDim ⟨2, ![M, C]⟩ ![0, 1] h2 (broadcastInDim ⟨2, ![M, 1]⟩ ![0] h1
              (maximumf (broadcastInDim ⟨1, ![M]⟩ ![] h0 (constant (F := Ideal) ⟨0, ![]⟩ .f32 0xFF800000#32))
                (Host.reduce FloatOps.maximumf P (constant (F := Ideal) ⟨0, ![]⟩ .f32 0xFF800000#32) h' hu))))))
            (constant (F := Ideal) ⟨0, ![]⟩ .f32 0x00000000#32) h' hu))))
      = headFn A X Wl Wr b Wo bo := by
  funext i
  obtain ⟨r, q, rfl⟩ : ∃ (r : Fin M) (q : Fin C), i = ix2 r q := ⟨i 0, i 1, eq_ix2 i⟩
  rw [hostLogSoftmax_apply P h' hr hu h0 h1 h2 r q, hP]
  rfl

/-- The kernel's log-softmax of a block's logits P that are the projection of the layer: the head. -/
theorem block_head_of (A X : (⟨2, ![M, K]⟩ : Shape).Idx → EReal) (Wl Wr : (⟨2, ![K, N]⟩ : Shape).Idx → EReal)
    (b : Fin N → EReal) (Wo : (⟨2, ![N, C]⟩ : Shape).Idx → EReal) (bo : Fin C → EReal)
    (P : FVec Ideal ⟨2, ![M, C]⟩ .f32) (hP : P = outFn (layerFn A X Wl Wr b) Wo bo)
    (hr : Shape.Reduces ⟨2, ![M, C]⟩ [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf
        (subf P (broadcastTo ⟨2, ![M, C]⟩ (shapeCast ⟨2, ![M, 1]⟩
          (multiReduction .maximumf [1] ⟨1, ![M]⟩ P 0xFF800000#32 hr hφ hmax) hc) hb))
        (broadcastTo ⟨2, ![M, C]⟩ (log (shapeCast ⟨2, ![M, 1]⟩ (multiReduction .add [1] ⟨1, ![M]⟩
          (exp (subf P (broadcastTo ⟨2, ![M, C]⟩ (shapeCast ⟨2, ![M, 1]⟩
            (multiReduction .maximumf [1] ⟨1, ![M]⟩ P 0xFF800000#32 hr hφ hmax) hc) hb)))
          0x00000000#32 hr hφ hadd) hc)) hb)
      = headFn A X Wl Wr b Wo bo := by
  funext i
  obtain ⟨r, q, rfl⟩ : ∃ (r : Fin M) (q : Fin C), i = ix2 r q := ⟨i 0, i 1, eq_ix2 i⟩
  rw [laneLogSoftmax_apply P hr hφ hmax hadd hc hb r q, hP]
  rfl

end Cert.Sage

end
-- ==== Proof.KernelBlock.lean ====
/-
  What the kernel body computes from one grid point's blocks, at the ideal instance.

  At a point the body holds a block of 2000 rows of the aggregated means and of the node features (each [2000, 128]),
  the two layer weights [128, 256], the layer bias as one row [1, 256], and for each classifier its weight [256, C] and
  its bias row [1, C] (C = 7 and C = 6). It forms the hidden block

      h = max (means · Wl + features · Wr + bias, 0)                       [2000, 256]

  (each product accumulated into zeros; the narrowing of h to sixteen bits changes nothing over the extended reals),
  then each classifier's logits  h · W + b  [2000, C], and stores the log-softmax of each row of the logits. The casts
  of a block to its own shape are the identity. So the two stored blocks are the two heads of the layer, as functions
  of the blocks the point loaded.
-/
import proofs.«133243_j91268055040046_1_alg».proof.Proof.Gen.KernelIdeal.Skeleton
import proofs.«133243_j91268055040046_1_alg».proof.Proof.LibSageLogHead

noncomputable section

namespace Cert.KernelIdeal.Block

open Cert.KernelIdeal Cert.KernelIdeal.Gen Idealize.ShloMosaic Idealize.ShloMosaic.ValueIdx Cert.Sage Cert.Lib

variable (a x : FVec Ideal S2000x128 .bf16) (wl wr : FVec Ideal S128x256 .bf16) (bl : FVec Ideal S1x256 .f32)

/-- The layer bias row as a function of the column. -/
abbrev biasRow {n : Nat} (b : (⟨2, ![1, n]⟩ : Shape).Idx → EReal) : Fin n → EReal := fun j => b (ix2 (0 : Fin 1) j)

/-- The hidden block is the layer of the point's blocks. -/
theorem hidden_eq :
    (k0_pay3 (F := Ideal) a x wl wr bl : S2000x256.Idx → EReal) = layerFn a x wl wr (biasRow bl) := by
  funext i
  obtain ⟨r, j, rfl⟩ : ∃ (r : Fin 2000) (j : Fin 256), i = ix2 r j := ⟨i 0, i 1, eq_ix2 i⟩
  unfold k0_pay3
  simp only [shapeCast_self]
  show max (((matmul (F := Ideal) dot_S2000x128_S128x256_S2000x256_1_0_0_1_n_n none a wl
          (constant (F := Ideal) S2000x256 .f32 0x00000000#32) (ix2 r j) : EReal)
      + (matmul (F := Ideal) dot_S2000x128_S128x256_S2000x256_1_0_0_1_n_n none x wr
          (constant (F := Ideal) S2000x256 .f32 0x00000000#32) (ix2 r j) : EReal))
      + (broadcastTo S2000x256 bl _ (ix2 r j) : EReal)) (Ideal.ofBits .f32 0x00000000#32) = layerAt a x wl wr (biasRow bl) r j
  rw [matmul_rc_apply _ rfl rfl rfl rfl rfl rfl, matmul_rc_apply _ rfl rfl rfl rfl rfl rfl, broadcastTo_1b_ab_apply,
    Cert.LibConsts.ofBits_zero]
  rfl

/-- The first classifier's logits are the projection of the layer. -/
theorem logits7_eq (wp : FVec Ideal S256x7 .bf16) (bp : FVec Ideal S1x7 .f32) :
    (k0_pay4 (F := Ideal) a x wl wr bl wp bp : S2000x7.Idx → EReal) = outFn (layerFn a x wl wr (biasRow bl)) wp (biasRow bp) := by
  funext i
  obtain ⟨r, j, rfl⟩ : ∃ (r : Fin 2000) (j : Fin 7), i = ix2 r j := ⟨i 0, i 1, eq_ix2 i⟩
  unfold k0_pay4
  simp only [shapeCast_self]
  show (matmul (F := Ideal) dot_S2000x256_S256x7_S2000x7_1_0_0_1_n_n none (k0_pay3 (F := Ideal) a x wl wr bl) wp
        (constant (F := Ideal) S2000x7 .f32 0x00000000#32) (ix2 r j) : EReal)
      + (broadcastTo S2000x7 bp _ (ix2 r j) : EReal) = outAt (layerFn a x wl wr (biasRow bl)) wp (biasRow bp) r j
  rw [matmul_rc_apply _ rfl rfl rfl rfl rfl rfl, broadcastTo_1b_ab_apply, hidden_eq]
  rfl

/-- The second classifier's logits are the projection of the layer. -/
theorem logits6_eq (ws : FVec Ideal S256x6 .bf16) (bs : FVec Ideal S1x6 .f32) :
    (k0_pay5 (F := Ideal) a x wl wr bl ws bs : S2000x6.Idx → EReal) = outFn (layerFn a x wl wr (biasRow bl)) ws (biasRow bs) := by
  funext i
  obtain ⟨r, j, rfl⟩ : ∃ (r : Fin 2000) (j : Fin 6), i = ix2 r j := ⟨i 0, i 1, eq_ix2 i⟩
  unfold k0_pay5
  simp only [shapeCast_self]
  show (matmul (F := Ideal) dot_S2000x256_S256x6_S2000x6_1_0_0_1_n_n none (k0_pay3 (F := Ideal) a x wl wr bl) ws
        (constant (F := Ideal) S2000x6 .f32 0x00000000#32) (ix2 r j) : EReal)
      + (broadcastTo S2000x6 bs _ (ix2 r j) : EReal) = outAt (layerFn a x wl wr (biasRow bl)) ws (biasRow bs) r j
  rw [matmul_rc_apply _ rfl rfl rfl rfl rfl rfl, broadcastTo_1b_ab_apply, hidden_eq]
  rfl

/-- The first stored block is the first head of the point's blocks: the row maximum taken once and reused, the shift,
    the exponentials' row sum, its logarithm, the second subtraction. -/
theorem head7_eq (wp : FVec Ideal S256x7 .bf16) (bp : FVec Ideal S1x7 .f32) :
    (k0_pay1 (F := Ideal) (k0_pay4 (F := Ideal) a x wl wr bl wp bp) (k0_pay6 (F := Ideal) a x wl wr bl wp bp) : S2000x7.Idx → EReal)
      = headFn a x wl wr (biasRow bl) wp (biasRow bp) :=
  block_head_of a x wl wr (biasRow bl) wp (biasRow bp) (k0_pay4 (F := Ideal) a x wl wr bl wp bp) (logits7_eq a x wl wr bl wp bp)
    _ (.inl rfl) rfl rfl _ _

/-- The second stored block is the second head of the point's blocks. -/
theorem head6_eq (ws : FVec Ideal S256x6 .bf16) (bs : FVec Ideal S1x6 .f32) :
    (k0_pay2 (F := Ideal) (k0_pay5 (F := Ideal) a x wl wr bl ws bs) : S2000x6.Idx → EReal)
      = headFn a x wl wr (biasRow bl) ws (biasRow bs) :=
  block_head_of a x wl wr (biasRow bl) ws (biasRow bs) (k0_pay5 (F := Ideal) a x wl wr bl ws bs) (logits6_eq a x wl wr bl ws bs)
    _ (.inl rfl) rfl rfl _ _

end Cert.KernelIdeal.Block

end
-- ==== Proof.KernelWindows.lean ====
/-
  The input windows of the idealized kernel's region: which part of its array each window's block is.

  The grid has fifty points. Windows 0 and 1 (the aggregated means and the node features, [100000, 128]) move down
  their arrays one block of 2000 rows a point: at point t their blocks are rows 2000 t … 2000 t + 1999. The seven other
  input windows stay on block (0, 0), and their block has the shape of their array, so at every point the block IS the
  array: the two layer weights [128, 256], the layer bias as one row [1, 256], and each classifier's weight [256, C] and
  bias row [1, C]. Where a block sits is read off the printed index maps, decided once over the fifty points; an entry
  of a block is the array's entry at (block index × block size + position in the block) on each axis.
-/
import proofs.«133243_j91268055040046_1_alg».proof.Proof.Gen.KernelIdeal.Frame
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The staged arrays, as the region finds them -/

/-- The aggregated means (narrowed to sixteen bits by the host: no change over the extended reals). -/
abbrev meanArr (c : Dev nD) : FVec Ideal S100000x128 .bf16 := V m c (Pipeline.arrRef spec0 0)
/-- The node features. -/
abbrev featArr (c : Dev nD) : FVec Ideal S100000x128 .bf16 := V m c (Pipeline.arrRef spec0 1)
/-- The weight applied to the means. -/
abbrev wlArr (c : Dev nD) : FVec Ideal S128x256 .bf16 := V m c (Pipeline.arrRef spec0 2)
/-- The layer bias as one row. -/
abbrev blArr (c : Dev nD) : FVec Ideal S1x256 .f32 := V m c (Pipeline.arrRef spec0 3)
/-- The weight applied to the features. -/
abbrev wrArr (c : Dev nD) : FVec Ideal S128x256 .bf16 := V m c (Pipeline.arrRef spec0 4)
/-- The first classifier's weight. -/
abbrev wpArr (c : Dev nD) : FVec Ideal S256x7 .bf16 := V m c (Pipeline.arrRef spec0 5)
/-- The first classifier's bias as one row. -/
abbrev bpArr (c : Dev nD) : FVec Ideal S1x7 .f32 := V m c (Pipeline.arrRef spec0 6)
/-- The second classifier's weight. -/
abbrev wsArr (c : Dev nD) : FVec Ideal S256x6 .bf16 := V m c (Pipeline.arrRef spec0 7)
/-- The second classifier's bias as one row. -/
abbrev bsArr (c : Dev nD) : FVec Ideal S1x6 .f32 := V m c (Pipeline.arrRef spec0 8)

/-! ## The printed index maps, decided over the fifty points -/

/-- The means' window is on block (t, 0) at point t. -/
theorem idx0 : ∀ t : Fin cfg0.N, win0_0.index t (0 : Fin 2) = t.val ∧ win0_0.index t (1 : Fin 2) = 0 :=
  (by decide +kernel : ∀ t : Fin grid0.N, _)
/-- So is the features' window. -/
theorem idx1 : ∀ t : Fin cfg0.N, win0_1.index t (0 : Fin 2) = t.val ∧ win0_1.index t (1 : Fin 2) = 0 :=
  (by decide +kernel : ∀ t : Fin grid0.N, _)
/-- The weight of the means stays on block (0, 0). -/
theorem idx2 : ∀ t : Fin cfg0.N, win0_2.index t (0 : Fin 2) = 0 ∧ win0_2.index t (1 : Fin 2) = 0 :=
  (by decide +kernel : ∀ t : Fin grid0.N, _)
/-- So does the layer bias row, -/
theorem idx3 : ∀ t : Fin cfg0.N, win0_3.index t (0 : Fin 2) = 0 ∧ win0_3.index t (1 : Fin 2) = 0 :=
  (by decide +kernel : ∀ t : Fin grid0.N, _)
/-- the weight of the features, -/
theorem idx4 : ∀ t : Fin cfg0.N, win0_4.index t (0 : Fin 2) = 0 ∧ win0_4.index t (1 : Fin 2) = 0 :=
  (by decide +kernel : ∀ t : Fin grid0.N, _)
/-- the first classifier's weight -/
theorem idx5 : ∀ t : Fin cfg0.N, win0_5.index t (0 : Fin 2) = 0 ∧ win0_5.index t (1 : Fin 2) = 0 :=
  (by decide +kernel : ∀ t : Fin grid0.N, _)
/-- and bias row, -/
theorem idx6 : ∀ t : Fin cfg0.N, win0_6.index t (0 : Fin 2) = 0 ∧ win0_6.index t (1 : Fin 2) = 0 :=
  (by decide +kernel : ∀ t : Fin grid0.N, _)
/-- and the second classifier's weight -/
theorem idx7 : ∀ t : Fin cfg0.N, win0_7.index t (0 : Fin 2) = 0 ∧ win0_7.index t (1 : Fin 2) = 0 :=
  (by decide +kernel : ∀ t : Fin grid0.N, _)
/-- and bias row. -/
theorem idx8 : ∀ t : Fin cfg0.N, win0_8.index t (0 : Fin 2) = 0 ∧ win0_8.index t (1 : Fin 2) = 0 :=
  (by decide +kernel : ∀ t : Fin grid0.N, _)

/-! ## The row windows: row p of the block at point t is row 2000 t + p of the array -/

theorem mean_blk (c : Dev nD) (t : Fin cfg0.N) (p : Fin 2000) (n : Fin 100000) (hn : n.val = t.val * 2000 + p.val)
    (k : Fin 128) : iblk m c 0 t (ix2 p k) = meanArr m c (ix2 n k) := by
  unfold iblk
  rw [View.read_apply, cast_eq]
  refine congrArg (V m c (Pipeline.arrRef spec0 0)) (funext fun a => Fin.ext ?_)
  obtain ⟨e0, e1⟩ := idx0 t
  match a with
  | ⟨0, _⟩ => show win0_0.index t (0 : Fin 2) * 2000 + 1 * p.val = n.val; omega
  | ⟨1, _⟩ => show win0_0.index t (1 : Fin 2) * 128 + 1 * k.val = k.val; omega

theorem feat_blk (c : Dev nD) (t : Fin cfg0.N) (p : Fin 2000) (n : Fin 100000) (hn : n.val = t.val * 2000 + p.val)
    (k : Fin 128) : iblk m c 1 t (ix2 p k) = featArr m c (ix2 n k) := by
  unfold iblk
  rw [View.read_apply, cast_eq]
  refine congrArg (V m c (Pipeline.arrRef spec0 1)) (funext fun a => Fin.ext ?_)
  obtain ⟨e0, e1⟩ := idx1 t
  match a with
  | ⟨0, _⟩ => show win0_1.index t (0 : Fin 2) * 2000 + 1 * p.val = n.val; omega
  | ⟨1, _⟩ => show win0_1.index t (1 : Fin 2) * 128 + 1 * k.val = k.val; omega

/-! ## The other windows: the block is the whole array -/

theorem wl_blk (c : Dev nD) (t : Fin cfg0.N) (y : S128x256.Idx) : iblk m c 2 t y = wlArr m c y := by
  unfold iblk
  rw [View.read_apply, cast_eq]
  refine congrArg (V m c (Pipeline.arrRef spec0 2)) (funext fun a => Fin.ext ?_)
  obtain ⟨e0, e1⟩ := idx2 t
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem bl_blk (c : Dev nD) (t : Fin cfg0.N) (y : S1x256.Idx) : iblk m c 3 t y = blArr m c y := by
  unfold iblk
  rw [View.read_apply, cast_eq]
  refine congrArg (V m c (Pipeline.arrRef spec0 3)) (funext fun a => Fin.ext ?_)
  obtain ⟨e0, e1⟩ := idx3 t
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem wr_blk (c : Dev nD) (t : Fin cfg0.N) (y : S128x256.Idx) : iblk m c 4 t y = wrArr m c y := by
  unfold iblk
  rw [View.read_apply, cast_eq]
  refine congrArg (V m c (Pipeline.arrRef spec0 4)) (funext fun a => Fin.ext ?_)
  obtain ⟨e0, e1⟩ := idx4 t
  match a with
  | ⟨0, _⟩ => show win0_4.index t (0 : Fin 2) * 128 + 1 * (y 0).val = (y 0).val; omega
  | ⟨1, _⟩ => show win0_4.index t (1 : Fin 2) * 256 + 1 * (y 1).val = (y 1).val; omega

theorem wp_blk (c : Dev nD) (t : Fin cfg0.N) (y : S256x7.Idx) : iblk m c 5 t y = wpArr m c y := by
  unfold iblk
  rw [View.read_apply, cast_eq]
  refine congrArg (V m c (Pipeline.arrRef spec0 5)) (funext fun a => Fin.ext ?_)
  obtain ⟨e0, e1⟩ := idx5 t
  match a with
  | ⟨0, _⟩ => show win0_5.index t (0 : Fin 2) * 256 + 1 * (y 0).val = (y 0).val; omega
  | ⟨1, _⟩ => show win0_5.index t (1 : Fin 2) * 7 + 1 * (y 1).val = (y 1).val; omega

theorem bp_blk (c : Dev nD) (t : Fin cfg0.N) (y : S1x7.Idx) : iblk m c 6 t y = bpArr m c y := by
  unfold iblk
  rw [View.read_apply, cast_eq]
  refine congrArg (V m c (Pipeline.arrRef spec0 6)) (funext fun a => Fin.ext ?_)
  obtain ⟨e0, e1⟩ := idx6 t
  match a with
  | ⟨0, _⟩ => show win0_6.index t (0 : Fin 2) * 1 + 1 * (y 0).val = (y 0).val; omega
  | ⟨1, _⟩ => show win0_6.index t (1 : Fin 2) * 7 + 1 * (y 1).val = (y 1).val; omega

theorem ws_blk (c : Dev nD) (t : Fin cfg0.N) (y : S256x6.Idx) : iblk m c 7 t y = wsArr m c y := by
  unfold iblk
  rw [View.read_apply, cast_eq]
  refine congrArg (V m c (Pipeline.arrRef spec0 7)) (funext fun a => Fin.ext ?_)
  obtain ⟨e0, e1⟩ := idx7 t
  match a with
  | ⟨0, _⟩ => show win0_7.index t (0 : Fin 2) * 256 + 1 * (y 0).val = (y 0).val; omega
  | ⟨1, _⟩ => show win0_7.index t (1 : Fin 2) * 6 + 1 * (y 1).val = (y 1).val; omega

theorem bs_blk (c : Dev nD) (t : Fin cfg0.N) (y : S1x6.Idx) : iblk m c 8 t y = bsArr m c y := by
  unfold iblk
  rw [View.read_apply, cast_eq]
  refine congrArg (V m c (Pipeline.arrRef spec0 8)) (funext fun a => Fin.ext ?_)
  obtain ⟨e0, e1⟩ := idx8 t
  match a with
  | ⟨0, _⟩ => show win0_8.index t (0 : Fin 2) * 1 + 1 * (y 0).val = (y 0).val; omega
  | ⟨1, _⟩ => show win0_8.index t (1 : Fin 2) * 6 + 1 * (y 1).val = (y 1).val; omega

end Cert.KernelIdeal.Windows

end
-- ==== Proof.KernelHeads.lean ====
/-
  What the idealized kernel's two result arrays hold after the run.

  At point t the body stores, in each output window's block, the head of the point's blocks (the module on the body).
  Rows 0 … 1999 of the row windows' blocks are rows 2000 t … 2000 t + 1999 of the means and of the features, the other
  blocks are whole arrays, and a head's entry (n, q) depends on row n of the means and of the features only; so the
  stored block is rows 2000 t … 2000 t + 1999 of the head of the WHOLE arrays, which is what point t writes back, the
  output window sitting on block (t, 0). The fifty blocks cover the 100000 rows (row i lies in the block of point
  i / 2000), so after the run each result array is that head: the first classifier's, [100000, 7], and the second's,
  [100000, 6].
-/
import proofs.«133243_j91268055040046_1_alg».proof.Proof.Gen.KernelIdeal.Value
import proofs.«133243_j91268055040046_1_alg».proof.Proof.KernelBlock
import proofs.«133243_j91268055040046_1_alg».proof.Proof.KernelWindows

noncomputable section

namespace Cert.KernelIdeal.Heads

open Cert.KernelIdeal Cert.KernelIdeal.Gen Idealize.ShloMosaic Idealize.ShloMosaic.TcCoe Idealize.SL.Sem
open Idealize.ShloMosaic.ValueIdx Cert.Sage Cert.KernelIdeal.Block Cert.KernelIdeal.Windows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The first result: the first classifier's head of the staged arrays. -/
def G9 (c : Dev nD) : S100000x7.Idx → EReal :=
  headFn (meanArr m c) (featArr m c) (wlArr m c) (wrArr m c) (biasRow (blArr m c)) (wpArr m c) (biasRow (bpArr m c))

/-- The second result: the second classifier's head of the staged arrays. -/
def G10 (c : Dev nD) : S100000x6.Idx → EReal :=
  headFn (meanArr m c) (featArr m c) (wlArr m c) (wrArr m c) (biasRow (blArr m c)) (wsArr m c) (biasRow (bsArr m c))

/-! ## A head of the point's blocks is the head of the arrays, 2000 t rows down -/

theorem head7_row (c : Dev nD) (t : Fin cfg0.N) (p : Fin 2000) (q : Fin 7) (hlt : t.val * 2000 + p.val < 100000) :
    headFn (M := 2000) (K := 128) (N := 256) (C := 7) (iblk m c 0 t) (iblk m c 1 t) (iblk m c 2 t) (iblk m c 4 t)
        (biasRow (iblk m c 3 t)) (iblk m c 5 t) (biasRow (iblk m c 6 t)) (ix2 p q)
      = G9 m c (ix2 (⟨t.val * 2000 + p.val, hlt⟩ : Fin 100000) q) := by
  unfold G9
  rw [headFn_ix2, headFn_ix2]
  exact headAt_row (M := 100000) (K := 128) (N := 256) (C := 7) (Mb := 2000)
    (iblk m c 0 t) (iblk m c 1 t) (meanArr m c) (featArr m c) (iblk m c 2 t) (iblk m c 4 t) (wlArr m c) (wrArr m c)
    (biasRow (iblk m c 3 t)) (biasRow (blArr m c)) (iblk m c 5 t) (wpArr m c) (biasRow (iblk m c 6 t)) (biasRow (bpArr m c))
    p ⟨t.val * 2000 + p.val, hlt⟩
    (fun k => mean_blk m c t p _ rfl k) (fun k => feat_blk m c t p _ rfl k)
    (fun k j => wl_blk m c t (ix2 k j)) (fun k j => wr_blk m c t (ix2 k j)) (fun j => bl_blk m c t (ix2 (0 : Fin 1) j))
    (fun k j => wp_blk m c t (ix2 k j)) (fun j => bp_blk m c t (ix2 (0 : Fin 1) j)) q

theorem head6_row (c : Dev nD) (t : Fin cfg0.N) (p : Fin 2000) (q : Fin 6) (hlt : t.val * 2000 + p.val < 100000) :
    headFn (M := 2000) (K := 128) (N := 256) (C := 6) (iblk m c 0 t) (iblk m c 1 t) (iblk m c 2 t) (iblk m c 4 t)
        (biasRow (iblk m c 3 t)) (iblk m c 7 t) (biasRow (iblk m c 8 t)) (ix2 p q)
      = G10 m c (ix2 (⟨t.val * 2000 + p.val, hlt⟩ : Fin 100000) q) := by
  unfold G10
  rw [headFn_ix2, headFn_ix2]
  exact headAt_row (M := 100000) (K := 128) (N := 256) (C := 6) (Mb := 2000)
    (iblk m c 0 t) (iblk m c 1 t) (meanArr m c) (featArr m c) (iblk m c 2 t) (iblk m c 4 t) (wlArr m c) (wrArr m c)
    (biasRow (iblk m c 3 t)) (biasRow (blArr m c)) (iblk m c 7 t) (wsArr m c) (biasRow (iblk m c 8 t)) (biasRow (bsArr m c))
    p ⟨t.val * 2000 + p.val, hlt⟩
    (fun k => mean_blk m c t p _ rfl k) (fun k => feat_blk m c t p _ rfl k)
    (fun k j => wl_blk m c t (ix2 k j)) (fun k j => wr_blk m c t (ix2 k j)) (fun j => bl_blk m c t (ix2 (0 : Fin 1) j))
    (fun k j => ws_blk m c t (ix2 k j)) (fun j => bs_blk m c t (ix2 (0 : Fin 1) j)) q

/-! ## The first result array -/

/-- The first output window is on block (t, 0) at point t. -/
theorem idx9 : ∀ t : Fin cfg0.N, win0_9.index t (0 : Fin 2) = t.val ∧ win0_9.index t (1 : Fin 2) = 0 :=
  (by decide +kernel : ∀ t : Fin grid0.N, _)

/-- What point t writes back to the first output window is block t of `G9`. -/
theorem flushed9_eq (c : Dev nD) (t : Fin cfg0.N) :
    (dats m 0 c).flushed 9 t = ((cfg0.win 9).blk t).view.read (Elt Ideal) (G9 m c) := by
  rw [Cert.KernelIdeal.Value.flushed9]
  unfold out0_9
  rw [View.canon_unit_zero hz]
  simp only [View.ld_unit_zero (S := S2000x128) hz, View.ld_unit_zero (S := S128x256) hz,
    View.ld_unit_zero (S := S1x256) hz, View.ld_unit_zero (S := S256x7) hz, View.ld_unit_zero (S := S1x7) hz]
  rw [head7_eq]
  funext j
  obtain ⟨p, q, rfl⟩ : ∃ (p : Fin 2000) (q : Fin 7), j = ix2 p q := ⟨j 0, j 1, eq_ix2 j⟩
  obtain ⟨e0, e1⟩ := idx9 t
  have ht : t.val < 50 := lt_of_lt_of_eq t.isLt N_0
  have hlt : t.val * 2000 + p.val < 100000 := by have := p.isLt; omega
  rw [View.read_apply, cast_eq]
  have hemb : ((cfg0.win 9).blk t).view.emb (ix2 p q) = ix2 (⟨t.val * 2000 + p.val, hlt⟩ : Fin 100000) q :=
    funext fun a => Fin.ext (by
      match a with
      | ⟨0, _⟩ => show win0_9.index t (0 : Fin 2) * 2000 + 1 * p.val = t.val * 2000 + p.val; omega
      | ⟨1, _⟩ => show win0_9.index t (1 : Fin 2) * 7 + 1 * q.val = q.val; omega)
  rw [hemb]
  exact head7_row m c t p q hlt

/-- An index of the array is in point t's block iff each coordinate is in the block's range on its axis. -/
theorem mem_blk9 (t : Fin cfg0.N) (i : S100000x7.Idx) :
    i ∈ ((cfg0.win 9).blk t).view.set ↔ ∀ a : Fin 2, win0_9.index t a * S2000x7.size a ≤ (i a).val
      ∧ (i a).val < win0_9.index t a * S2000x7.size a + S2000x7.size a := by
  show i ∈ ((View.whole main_v32_0).slice (win0_9.rect t)).set ↔ _
  rw [View.set_slice_whole, Rect.mem_set_unit]
  exact Iff.rfl

/-- Every run of 2000 rows is some point's block. -/
theorem idx_onto9 : ∀ q0 : Fin 50, ∃ t : Fin cfg0.N, win0_9.index t = ![q0.val, 0] :=
  (by decide +kernel : ∀ q0 : Fin 50, ∃ t : Fin grid0.N, win0_9.index t = ![q0.val, 0])

/-- The fifty blocks cover the array: row i lies in the block of point i / 2000. -/
theorem cover9 (i : S100000x7.Idx) :
    ∃ t : Fin cfg0.N, (cfg0.win 9).flush t = true ∧ i ∈ ((cfg0.win 9).blk t).view.set := by
  have hi0 : (i 0).val < 100000 := (i 0).isLt
  have hi1 : (i 1).val < 7 := (i 1).isLt
  obtain ⟨t, ht⟩ := idx_onto9 ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk9]
  intro a
  match a with
  | ⟨0, _⟩ =>
    show win0_9.index t (0 : Fin 2) * 2000 ≤ (i 0).val ∧ (i 0).val < win0_9.index t (0 : Fin 2) * 2000 + 2000
    omega
  | ⟨1, _⟩ =>
    show win0_9.index t (1 : Fin 2) * 7 ≤ (i 1).val ∧ (i 1).val < win0_9.index t (1 : Fin 2) * 7 + 7
    omega

/-- The first result array after the run is `G9`. -/
theorem final9 (c : Dev nD) : (dats m 0 c).arrAt 9 cfg0.N = G9 m c :=
  (dats m 0 c).arrAt_eq_of_cover 9 (G9 m c) (fun t _ => flushed9_eq m c t) cover9

/-! ## The second result array -/

/-- The second output window is on block (t, 0) at point t. -/
theorem idx10 : ∀ t : Fin cfg0.N, win0_10.index t (0 : Fin 2) = t.val ∧ win0_10.index t (1 : Fin 2) = 0 :=
  (by decide +kernel : ∀ t : Fin grid0.N, _)

/-- What point t writes back to the second output window is block t of `G10`. -/
theorem flushed10_eq (c : Dev nD) (t : Fin cfg0.N) :
    (dats m 0 c).flushed 10 t = ((cfg0.win 10).blk t).view.read (Elt Ideal) (G10 m c) := by
  rw [Cert.KernelIdeal.Value.flushed10]
  unfold out0_10
  rw [View.canon_unit_zero hz]
  simp only [View.ld_unit_zero (S := S2000x128) hz, View.ld_unit_zero (S := S128x256) hz,
    View.ld_unit_zero (S := S1x256) hz, View.ld_unit_zero (S := S256x6) hz, View.ld_unit_zero (S := S1x6) hz]
  rw [head6_eq]
  funext j
  obtain ⟨p, q, rfl⟩ : ∃ (p : Fin 2000) (q : Fin 6), j = ix2 p q := ⟨j 0, j 1, eq_ix2 j⟩
  obtain ⟨e0, e1⟩ := idx10 t
  have ht : t.val < 50 := lt_of_lt_of_eq t.isLt N_0
  have hlt : t.val * 2000 + p.val < 100000 := by have := p.isLt; omega
  rw [View.read_apply, cast_eq]
  have hemb : ((cfg0.win 10).blk t).view.emb (ix2 p q) = ix2 (⟨t.val * 2000 + p.val, hlt⟩ : Fin 100000) q :=
    funext fun a => Fin.ext (by
      match a with
      | ⟨0, _⟩ => show win0_10.index t (0 : Fin 2) * 2000 + 1 * p.val = t.val * 2000 + p.val; omega
      | ⟨1, _⟩ => show win0_10.index t (1 : Fin 2) * 6 + 1 * q.val = q.val; omega)
  rw [hemb]
  exact head6_row m c t p q hlt

/-- An index of the array is in point t's block iff each coordinate is in the block's range on its axis. -/
theorem mem_blk10 (t : Fin cfg0.N) (i : S100000x6.Idx) :
    i ∈ ((cfg0.win 10).blk t).view.set ↔ ∀ a : Fin 2, win0_10.index t a * S2000x6.size a ≤ (i a).val
      ∧ (i a).val < win0_10.index t a * S2000x6.size a + S2000x6.size a := by
  show i ∈ ((View.whole main_v32_1).slice (win0_10.rect t)).set ↔ _
  rw [View.set_slice_whole, Rect.mem_set_unit]
  exact Iff.rfl

/-- Every run of 2000 rows is some point's block. -/
theorem idx_onto10 : ∀ q0 : Fin 50, ∃ t : Fin cfg0.N, win0_10.index t = ![q0.val, 0] :=
  (by decide +kernel : ∀ q0 : Fin 50, ∃ t : Fin grid0.N, win0_10.index t = ![q0.val, 0])

/-- The fifty blocks cover the array. -/
theorem cover10 (i : S100000x6.Idx) :
    ∃ t : Fin cfg0.N, (cfg0.win 10).flush t = true ∧ i ∈ ((cfg0.win 10).blk t).view.set := by
  have hi0 : (i 0).val < 100000 := (i 0).isLt
  have hi1 : (i 1).val < 6 := (i 1).isLt
  obtain ⟨t, ht⟩ := idx_onto10 ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk10]
  intro a
  match a with
  | ⟨0, _⟩ =>
    show win0_10.index t (0 : Fin 2) * 2000 ≤ (i 0).val ∧ (i 0).val < win0_10.index t (0 : Fin 2) * 2000 + 2000
    omega
  | ⟨1, _⟩ =>
    show win0_10.index t (1 : Fin 2) * 6 ≤ (i 1).val ∧ (i 1).val < win0_10.index t (1 : Fin 2) * 6 + 6
    omega

/-- The second result array after the run is `G10`. -/
theorem final10 (c : Dev nD) : (dats m 0 c).arrAt 10 cfg0.N = G10 m c :=
  (dats m 0 c).arrAt_eq_of_cover 10 (G10 m c) (fun t _ => flushed10_eq m c t) cover10

/-! ## The run, read -/

/-- Every weakly fair execution of the idealized kernel ends with the two result arrays at the two heads of the arrays
    the region found, the arguments unchanged. -/
theorem run : θ_run defs (onTc (τ := τ) (main (F := Ideal))) ⟨m, fun _ => 0, ρ⟩ fun r => ∀ c : Dev nD,
      r.2.mem ((c : Thread nD τ).loc main_v32_0) = G9 m c
      ∧ r.2.mem ((c : Thread nD τ).loc main_v32_1) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Cert.KernelIdeal.Value.run_blocks m ρ)

end Cert.KernelIdeal.Heads

end
-- ==== Proof.KernelHost.lean ====
/-
  The arrays the kernel's region stages, in terms of @main's arguments.

  Before its one region the idealized kernel's @main runs 38 host operations: the aggregation of each node's
  in-neighbours' features into their mean — the same gather, the same two scatter-additions over the edge list, the same
  division by the guarded in-degree, operation for operation, as the reference's first thirty operations —, the narrowing
  of the mean, of the features and of the four weights to sixteen bits, and the three biases recast as one-row arrays.
  So the nine staged arrays are: the reference's mean stage of (x, edge_index), narrowed; x, w_l, w_r, w_p, w_s narrowed;
  b_l, b_p, b_s as rows. (Over the extended reals a narrowing is the identity; that is used where these are combined.)
-/
import proofs.«133243_j91268055040046_1_alg».proof.Proof.Gen.KernelIdeal.Frame
import proofs.«133243_j91268055040046_1_alg».proof.Proof.RefRead
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

/-- Window 0 stages the mean of (x, edge_index) as the reference computes it, narrowed. -/
theorem staged_mean (c : Dev nD) :
    V m c (Pipeline.arrRef spec0 0)
      = truncf .bf16 (Cert.ReferenceIdeal.ReadP.val_main_v22 (F := F) (m ((c : Thread nD τ).loc main_arg0))
          (m ((c : Thread nD τ).loc main_arg1))) bitsLt_bf16_f32 := by
  show StableHlo.after hostOps0 (fun b => m (c, b)) (Pipeline.arrRef spec0 0) = _
  after_results_simp <;> rfl

/-- Window 1 stages x, narrowed. -/
theorem staged_feat (c : Dev nD) :
    V m c (Pipeline.arrRef spec0 1) = truncf .bf16 (m ((c : Thread nD τ).loc main_arg0)) bitsLt_bf16_f32 := by
  show StableHlo.after hostOps0 (fun b => m (c, b)) (Pipeline.arrRef spec0 1) = _
  after_results_simp <;> rfl

/-- Window 2 stages w_l, narrowed. -/
theorem staged_wl (c : Dev nD) :
    V m c (Pipeline.arrRef spec0 2) = truncf .bf16 (m ((c : Thread nD τ).loc main_arg2)) bitsLt_bf16_f32 := by
  show StableHlo.after hostOps0 (fun b => m (c, b)) (Pipeline.arrRef spec0 2) = _
  after_results_simp <;> rfl

/-- Window 3 stages b_l as one row. -/
theorem staged_bl (c : Dev nD) :
    V m c (Pipeline.arrRef spec0 3) = shapeCast S1x256 (m ((c : Thread nD τ).loc main_arg3)) shapeCasts_S256_S1x256 := by
  show StableHlo.after hostOps0 (fun b => m (c, b)) (Pipeline.arrRef spec0 3) = _
  after_results_simp <;> rfl

/-- Window 4 stages w_r, narrowed. -/
theorem staged_wr (c : Dev nD) :
    V m c (Pipeline.arrRef spec0 4) = truncf .bf16 (m ((c : Thread nD τ).loc main_arg4)) bitsLt_bf16_f32 := by
  show StableHlo.after hostOps0 (fun b => m (c, b)) (Pipeline.arrRef spec0 4) = _
  after_results_simp <;> rfl

/-- Window 5 stages w_p, narrowed. -/
theorem staged_wp (c : Dev nD) :
    V m c (Pipeline.arrRef spec0 5) = truncf .bf16 (m ((c : Thread nD τ).loc main_arg5)) bitsLt_bf16_f32 := by
  show StableHlo.after hostOps0 (fun b => m (c, b)) (Pipeline.arrRef spec0 5) = _
  after_results_simp <;> rfl

/-- Window 6 stages b_p as one row. -/
theorem staged_bp (c : Dev nD) :
    V m c (Pipeline.arrRef spec0 6) = shapeCast S1x7 (m ((c : Thread nD τ).loc main_arg6)) shapeCasts_S7_S1x7 := by
  show StableHlo.after hostOps0 (fun b => m (c, b)) (Pipeline.arrRef spec0 6) = _
  after_results_simp <;> rfl

/-- Window 7 stages w_s, narrowed. -/
theorem staged_ws (c : Dev nD) :
    V m c (Pipeline.arrRef spec0 7) = truncf .bf16 (m ((c : Thread nD τ).loc main_arg7)) bitsLt_bf16_f32 := by
  show StableHlo.after hostOps0 (fun b => m (c, b)) (Pipeline.arrRef spec0 7) = _
  after_results_simp <;> rfl

/-- Window 8 stages b_s as one row. -/
theorem staged_bs (c : Dev nD) :
    V m c (Pipeline.arrRef spec0 8) = shapeCast S1x6 (m ((c : Thread nD τ).loc main_arg8)) shapeCasts_S6_S1x6 := by
  show StableHlo.after hostOps0 (fun b => m (c, b)) (Pipeline.arrRef spec0 8) = _
  after_results_simp <;> rfl

end Cert.KernelIdeal.Host

end
-- ==== Proof.RefHeads.lean ====
/-
  The idealized reference's two results, as heads.

  The reference forms the aggregated mean A of each node's in-neighbours (a gather and two scatter-additions over the
  edge list, then a division by the guarded in-degree), then the hidden layer

      h = max ((A · Wl + b) + X · Wr, 0)                                  [100000, 256]

  — the bias added before the second product, which over the extended reals is the same sum as adding it last, addition
  being commutative and associative —, then each classifier's logits  h · W + c  and the log-softmax of each row of the
  logits (the row's maximum by a reduction over axis 1, joined once more with -∞, which changes nothing). Each stage is
  read off the reference's run one operation at a time; put together, the two results are the two heads of
  (A, X, Wl, Wr, b) with the two classifiers' weights and biases, A being the reference's own mean stage.
-/
import proofs.«133243_j91268055040046_1_alg».proof.Proof.RefRead
import proofs.«133243_j91268055040046_1_alg».proof.Proof.LibSageLogHead

noncomputable section

namespace Cert.ReferenceIdeal.Heads

open Cert.ReferenceIdeal Cert.ReferenceIdeal.Gen Cert.ReferenceIdeal.ReadP Idealize.ShloMosaic
open Idealize.ShloMosaic.ValueIdx Cert.Sage Cert.Lib

variable (x0 : (⟨S100000x128, .f32⟩ : BufTy).Contents (Elt Ideal)) (x1 : (⟨S2x625000, .i32⟩ : BufTy).Contents (Elt Ideal))
  (x2 : (⟨S128x256, .f32⟩ : BufTy).Contents (Elt Ideal)) (x3 : (⟨S256, .f32⟩ : BufTy).Contents (Elt Ideal))
  (x4 : (⟨S128x256, .f32⟩ : BufTy).Contents (Elt Ideal))

/-- The hidden layer is the layer of the mean stage and the features. -/
theorem hidden_eq :
    val_main_v29 (F := Ideal) x0 x1 x2 x3 x4
      = layerFn (val_main_v22 (F := Ideal) x0 x1) x0 x2 x4 (fun j => x3 (ix1 j)) := by
  unfold val_main_v29 val_main_v28 val_main_v26 val_main_v23 val_main_v25 val_main_v24 val_main_v27 val_main_call0_v0
    val_main_call0_cst
  exact host_layer dot_S100000x128_S128x256_S100000x256_1_0_0_1_n_n rfl rfl rfl rfl rfl rfl _ _ _
    (val_main_v22 (F := Ideal) x0 x1) x0 x2 x4 x3

/-- The first classifier's logits are the projection of the hidden layer. -/
theorem logits7_eq (x5 : (⟨S256x7, .f32⟩ : BufTy).Contents (Elt Ideal)) (x6 : (⟨S7, .f32⟩ : BufTy).Contents (Elt Ideal)) :
    val_main_v33 (F := Ideal) x0 x1 x2 x3 x4 x5 x6
      = outFn (layerFn (val_main_v22 (F := Ideal) x0 x1) x0 x2 x4 (fun j => x3 (ix1 j))) x5 (fun j => x6 (ix1 j)) := by
  unfold val_main_v33 val_main_v30 val_main_v32 val_main_v31
  rw [hidden_eq]
  exact host_out dot_S100000x256_S256x7_S100000x7_1_0_0_1_n_n rfl rfl rfl rfl rfl rfl _ _ _ x5 x6

/-- The second classifier's logits are the projection of the hidden layer. -/
theorem logits6_eq (x7 : (⟨S256x6, .f32⟩ : BufTy).Contents (Elt Ideal)) (x8 : (⟨S6, .f32⟩ : BufTy).Contents (Elt Ideal)) :
    val_main_v37 (F := Ideal) x0 x1 x2 x3 x4 x7 x8
      = outFn (layerFn (val_main_v22 (F := Ideal) x0 x1) x0 x2 x4 (fun j => x3 (ix1 j))) x7 (fun j => x8 (ix1 j)) := by
  unfold val_main_v37 val_main_v34 val_main_v36 val_main_v35
  rw [hidden_eq]
  exact host_out dot_S100000x256_S256x6_S100000x6_1_0_0_1_n_n rfl rfl rfl rfl rfl rfl _ _ _ x7 x8

/-- The first result is the first classifier's head. -/
theorem head7_eq (x5 : (⟨S256x7, .f32⟩ : BufTy).Contents (Elt Ideal)) (x6 : (⟨S7, .f32⟩ : BufTy).Contents (Elt Ideal)) :
    val_main_v38 (F := Ideal) x0 x1 x2 x3 x4 x5 x6
      = headFn (val_main_v22 (F := Ideal) x0 x1) x0 x2 x4 (fun j => x3 (ix1 j)) x5 (fun j => x6 (ix1 j)) := by
  unfold val_main_v38 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst
  exact host_head_of _ _ _ _ _ _ _ (val_main_v33 (F := Ideal) x0 x1 x2 x3 x4 x5 x6) (logits7_eq x0 x1 x2 x3 x4 x5 x6)
    _ (by decide) _ _ _ _

/-- The second result is the second classifier's head. -/
theorem head6_eq (x7 : (⟨S256x6, .f32⟩ : BufTy).Contents (Elt Ideal)) (x8 : (⟨S6, .f32⟩ : BufTy).Contents (Elt Ideal)) :
    val_main_v39 (F := Ideal) x0 x1 x2 x3 x4 x7 x8
      = headFn (val_main_v22 (F := Ideal) x0 x1) x0 x2 x4 (fun j => x3 (ix1 j)) x7 (fun j => x8 (ix1 j)) := by
  unfold val_main_v39 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst
  exact host_head_of _ _ _ _ _ _ _ (val_main_v37 (F := Ideal) x0 x1 x2 x3 x4 x7 x8) (logits6_eq x0 x1 x2 x3 x4 x7 x8)
    _ (by decide) _ _ _ _

end Cert.ReferenceIdeal.Heads

end
-- ==== Proof.Bridge.lean ====
/-
  The two programs' results are one function of the arguments.

  The idealized kernel ends with its two result arrays at the two heads of the arrays its region staged; those arrays
  are the reference's own mean stage of (x, edge_index) and x, w_l, w_r, w_p, w_s, each narrowed to sixteen bits — the
  identity over the extended reals —, and b_l, b_p, b_s recast as one-row arrays, whose entry (0, j) is the vector's
  entry j. The idealized reference ends with its two results at the same two heads of the mean stage, x, w_l, w_r, b_l
  and each classifier's weight and bias. A head depends on its operands entry by entry, so the results agree.
-/
import proofs.«133243_j91268055040046_1_alg».proof.Proof.KernelHeads
import proofs.«133243_j91268055040046_1_alg».proof.Proof.KernelHost
import proofs.«133243_j91268055040046_1_alg».proof.Proof.RefHeads

noncomputable section

namespace Cert.Bridge

open Idealize.ShloMosaic Idealize.ShloMosaic.TcCoe Idealize.SL.Sem Idealize.ShloMosaic.ValueIdx Cert.Sage
open Cert.KernelIdeal.Block Cert.KernelIdeal.Windows

/-- A length-N vector recast as one row [1, N] reads, at (0, j), its entry j. -/
theorem shapeCast_row_apply {α : Type} {N : Nat} (v : (⟨1, ![N]⟩ : Shape).Idx → α)
    (h : (⟨1, ![N]⟩ : Shape).ShapeCasts ⟨2, ![1, N]⟩) (j : Fin N) :
    shapeCast ⟨2, ![1, N]⟩ v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- Over the extended reals a narrowing to a shorter format is the identity. -/
theorem truncf_id {s : Shape} {φ ψ : FTy} (v : FVec Ideal s φ) (h : ψ.bits < φ.bits) :
    (truncf ψ v h : s.Idx → EReal) = v := rfl

variable (m : (ℓ : Loc Cert.KernelIdeal.nD Cert.KernelIdeal.τ Cert.KernelIdeal.sig) → Buf (Elt Ideal) ℓ)

/-! ## The staged arrays are the arguments, and the reference's mean stage -/

/-- The staged means are the reference's mean stage of (x, edge_index). -/
theorem mean_eq (c : Dev Cert.KernelIdeal.nD) :
    (meanArr m c : Cert.KernelIdeal.S100000x128.Idx → EReal)
      = Cert.ReferenceIdeal.ReadP.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  show Cert.KernelIdeal.Gen.V m c (Pipeline.arrRef Cert.KernelIdeal.spec0 0) = _
  rw [Cert.KernelIdeal.Host.staged_mean m c]
  exact truncf_id _ _

/-- The staged features are x. -/
theorem feat_eq (c : Dev Cert.KernelIdeal.nD) :
    (featArr m c : Cert.KernelIdeal.S100000x128.Idx → EReal)
      = m ((c : Thread Cert.KernelIdeal.nD Cert.KernelIdeal.τ).loc Cert.KernelIdeal.main_arg0) := by
  show Cert.KernelIdeal.Gen.V m c (Pipeline.arrRef Cert.KernelIdeal.spec0 1) = _
  rw [Cert.KernelIdeal.Host.staged_feat m c]
  exact truncf_id _ _

/-- The staged weight of the means is w_l. -/
theorem wl_eq (c : Dev Cert.KernelIdeal.nD) :
    (wlArr m c : Cert.KernelIdeal.S128x256.Idx → EReal)
      = m ((c : Thread Cert.KernelIdeal.nD Cert.KernelIdeal.τ).loc Cert.KernelIdeal.main_arg2) := by
  show Cert.KernelIdeal.Gen.V m c (Pipeline.arrRef Cert.KernelIdeal.spec0 2) = _
  rw [Cert.KernelIdeal.Host.staged_wl m c]
  exact truncf_id _ _

/-- The staged weight of the features is w_r. -/
theorem wr_eq (c : Dev Cert.KernelIdeal.nD) :
    (wrArr m c : Cert.KernelIdeal.S128x256.Idx → EReal)
      = m ((c : Thread Cert.KernelIdeal.nD Cert.KernelIdeal.τ).loc Cert.KernelIdeal.main_arg4) := by
  show Cert.KernelIdeal.Gen.V m c (Pipeline.arrRef Cert.KernelIdeal.spec0 4) = _
  rw [Cert.KernelIdeal.Host.staged_wr m c]
  exact truncf_id _ _

/-- The first classifier's staged weight is w_p. -/
theorem wp_eq (c : Dev Cert.KernelIdeal.nD) :
    (wpArr m c : Cert.KernelIdeal.S256x7.Idx → EReal)
      = m ((c : Thread Cert.KernelIdeal.nD Cert.KernelIdeal.τ).loc Cert.KernelIdeal.main_arg5) := by
  show Cert.KernelIdeal.Gen.V m c (Pipeline.arrRef Cert.KernelIdeal.spec0 5) = _
  rw [Cert.KernelIdeal.Host.staged_wp m c]
  exact truncf_id _ _

/-- The second classifier's staged weight is w_s. -/
theorem ws_eq (c : Dev Cert.KernelIdeal.nD) :
    (wsArr m c : Cert.KernelIdeal.S256x6.Idx → EReal)
      = m ((c : Thread Cert.KernelIdeal.nD Cert.KernelIdeal.τ).loc Cert.KernelIdeal.main_arg7) := by
  show Cert.KernelIdeal.Gen.V m c (Pipeline.arrRef Cert.KernelIdeal.spec0 7) = _
  rw [Cert.KernelIdeal.Host.staged_ws m c]
  exact truncf_id _ _

/-- The staged layer bias row holds b_l. -/
theorem bl_eq (c : Dev Cert.KernelIdeal.nD) (j : Fin 256) :
    biasRow (blArr m c) j
      = m ((c : Thread Cert.KernelIdeal.nD Cert.KernelIdeal.τ).loc Cert.KernelIdeal.main_arg3) (ix1 j) := by
  show Cert.KernelIdeal.Gen.V m c (Pipeline.arrRef Cert.KernelIdeal.spec0 3) (ix2 (0 : Fin 1) j) = _
  rw [Cert.KernelIdeal.Host.staged_bl m c]
  exact shapeCast_row_apply _ _ j

/-- The first classifier's staged bias row holds b_p. -/
theorem bp_eq (c : Dev Cert.KernelIdeal.nD) (j : Fin 7) :
    biasRow (bpArr m c) j
      = m ((c : Thread Cert.KernelIdeal.nD Cert.KernelIdeal.τ).loc Cert.KernelIdeal.main_arg6) (ix1 j) := by
  show Cert.KernelIdeal.Gen.V m c (Pipeline.arrRef Cert.KernelIdeal.spec0 6) (ix2 (0 : Fin 1) j) = _
  rw [Cert.KernelIdeal.Host.staged_bp m c]
  exact shapeCast_row_apply _ _ j

/-- The second classifier's staged bias row holds b_s. -/
theorem bs_eq (c : Dev Cert.KernelIdeal.nD) (j : Fin 6) :
    biasRow (bsArr m c) j
      = m ((c : Thread Cert.KernelIdeal.nD Cert.KernelIdeal.τ).loc Cert.KernelIdeal.main_arg8) (ix1 j) := by
  show Cert.KernelIdeal.Gen.V m c (Pipeline.arrRef Cert.KernelIdeal.spec0 8) (ix2 (0 : Fin 1) j) = _
  rw [Cert.KernelIdeal.Host.staged_bs m c]
  exact shapeCast_row_apply _ _ j

/-! ## The results -/

/-- The kernel's first result array is the reference's first result stage of the same arguments. -/
theorem result0 (c : Dev Cert.KernelIdeal.nD) :
    Cert.KernelIdeal.Heads.G9 m c
      = Cert.ReferenceIdeal.ReadP.val_main_v38 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  rw [Cert.ReferenceIdeal.Heads.head7_eq]
  unfold Cert.KernelIdeal.Heads.G9
  exact headFn_congr _ _ _ _ _ _ _ _ _ _ _ _ _ _ (mean_eq m c) (feat_eq m c) (wl_eq m c) (wr_eq m c) (bl_eq m c)
    (wp_eq m c) (bp_eq m c)

/-- The kernel's second result array is the reference's second result stage of the same arguments. -/
theorem result1 (c : Dev Cert.KernelIdeal.nD) :
    Cert.KernelIdeal.Heads.G10 m c
      = Cert.ReferenceIdeal.ReadP.val_main_v39 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  rw [Cert.ReferenceIdeal.Heads.head6_eq]
  unfold Cert.KernelIdeal.Heads.G10
  exact headFn_congr _ _ _ _ _ _ _ _ _ _ _ _ _ _ (mean_eq m c) (feat_eq m c) (wl_eq m c) (wr_eq m c) (bl_eq m c)
    (ws_eq m c) (bs_eq m c)

end Cert.Bridge

end
-- ==== Proof.lean ====
/-
  A mean-aggregating graph layer with two log-softmax classifier heads: the kernel against its reference.

  Both programs take node features x [100000, 128], an edge list [2, 625000], two layer weights w_l, w_r [128, 256] with
  a bias b_l [256], and two classifiers (w_p [256, 7], b_p [7]) and (w_s [256, 6], b_s [6]). Both first aggregate, for
  every node, the mean A of its in-neighbours' features (a gather of the source rows, a scatter-addition into the target
  rows, a second scatter-addition of ones for the in-degree, a division by max (in-degree, 1)): the same host operations
  in the same order. Then

      h = max (A · w_l + x · w_r + b_l, 0),     result_p = logsoftmax_rows (h · w_p + b_p),   result_s likewise with w_s, b_s.

  The kernel computes everything after A in one region over fifty blocks of 2000 rows, with the operands narrowed to
  sixteen bits (the identity over the extended reals), the bias added after the second product, each product accumulated
  into zeros, and each row's maximum and sum taken by lane reductions; the reference works on the whole arrays, adds
  the bias before the second product, and joins each row's maximum once more with -∞. Over the extended reals addition is
  commutative and associative and a fold of max is never below its starting value, so the two are one function of the
  arguments, whatever the arguments are: no finiteness is used. An entry of a result depends on one row of A and of x,
  which is why a block of rows computes the same numbers as the whole array.

  The three frames: the two kernels' are the generated frame certificates; the reference's is its run with the results
  dropped. The idealization rewrote no operation, so `preserves` is `True`.
-/
import proofs.«133243_j91268055040046_1_alg».proof.Defs
import proofs.«133243_j91268055040046_1_alg».proof.Proof.Gen.Kernel
import proofs.«133243_j91268055040046_1_alg».proof.Proof.Gen.Kernel.Skeleton
import proofs.«133243_j91268055040046_1_alg».proof.Proof.Gen.Kernel.Launch
import proofs.«133243_j91268055040046_1_alg».proof.Proof.Gen.Kernel.Points
import proofs.«133243_j91268055040046_1_alg».proof.Proof.Gen.Kernel.Frame
import proofs.«133243_j91268055040046_1_alg».proof.Proof.Gen.KernelIdeal
import proofs.«133243_j91268055040046_1_alg».proof.Proof.Gen.KernelIdeal.Skeleton
import proofs.«133243_j91268055040046_1_alg».proof.Proof.Gen.KernelIdeal.Launch
import proofs.«133243_j91268055040046_1_alg».proof.Proof.Gen.KernelIdeal.Points
import proofs.«133243_j91268055040046_1_alg».proof.Proof.Gen.KernelIdeal.Frame
import proofs.«133243_j91268055040046_1_alg».proof.Proof.Gen.ReferenceIdeal
import proofs.«133243_j91268055040046_1_alg».proof.Proof.Gen.Pre_finite_inputs
import proofs.«133243_j91268055040046_1_alg».proof.Proof.Gen.KernelIdeal.Value
import proofs.«133243_j91268055040046_1_alg».proof.Proof.Bridge
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- From memories agreeing on the arguments the idealized kernel ends at the two heads of the arrays its region staged,
    the idealized reference at its two result stages, and those are the same arrays. -/
theorem algebraic : Cert.algebraic_KernelIdeal_ReferenceIdeal := by
  intro m ρ m' ρ' _ hagree
  refine ⟨fun c => Cert.KernelIdeal.Heads.G9 m c, fun c => Cert.KernelIdeal.Heads.G10 m c,
    Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v38_eq, (hagree c).1, (hagree c).2.1, (hagree c).2.2.1, (hagree c).2.2.2.1, (hagree c).2.2.2.2.1, (hagree c).2.2.2.2.2.1, (hagree c).2.2.2.2.2.2.1]
    exact (Cert.Bridge.result0 m c).symm
  · rw [Cert.ReferenceIdeal.ReadP.val_main_v39_eq, (hagree c).1, (hagree c).2.1, (hagree c).2.2.1, (hagree c).2.2.2.1, (hagree c).2.2.2.2.1, (hagree c).2.2.2.2.2.2.2.1, (hagree c).2.2.2.2.2.2.2.2]
    exact (Cert.Bridge.result1 m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
